-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131328 : Shape := ⟨1, ![131328]⟩
abbrev S_ : Shape := ⟨0, ![]⟩

class Facts : Prop where
  bcast_S_S131328 : S_.BroadcastsInDim S131328 (![] : Fin 0 → Fin S131328.rank)
  reducesTo_S131328_S_d0 : S131328.ReducesTo [0] S_
  h_S_ : 0 < S_.numel

variable [Facts]

def fn {F : FTy → Type} [FloatOps F] (main_arg0 : FVec F S131328 .f32) (main_arg1 : FVec F S131328 .f32) : IVec S_ 1 :=
  let main_v0 : FVec F S131328 .f32 := Host.absf main_arg0
  let main_cst : FVec F S_ .f32 := constant S_ .f32 0x7F800000#32
  let main_v1 : FVec F S131328 .f32 := broadcastInDim S131328 ![] bcast_S_S131328 main_cst
  let main_v2 : IVec S131328 1 := cmpf .olt main_v0 main_v1
  let main_c : IVec S_ 1 := constantI S_ 1 1#1
  let main_v3 : IVec S_ 1 := (fun x v => Host.reduce IntOp.andi x v reducesTo_S131328_S_d0 h_S_) main_v2 main_c
  let main_v4 : FVec F S131328 .f32 := Host.absf main_arg1
  let main_cst_0 : FVec F S_ .f32 := constant S_ .f32 0x7F800000#32
  let main_v5 : FVec F S131328 .f32 := broadcastInDim S131328 ![] bcast_S_S131328 main_cst_0
  let main_v6 : IVec S131328 1 := cmpf .olt main_v4 main_v5
  let main_c_1 : IVec S_ 1 := constantI S_ 1 1#1
  let main_v7 : IVec S_ 1 := (fun x v => Host.reduce IntOp.andi x v reducesTo_S131328_S_d0 h_S_) main_v6 main_c_1
  let main_v8 : IVec S_ 1 := andi main_v3 main_v7
  main_v8
-- ==== Kernel.lean ====
abbrev S131328 : Shape := ⟨1, ![131328]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S512x512x1 : Shape := ⟨3, ![512, 512, 1]⟩
abbrev S256x256 : Shape := ⟨2, ![256, 256]⟩

abbrev nBuf : Space → Nat
  | .hbm => 111
  | .vmem => 7
  | .smem => 0
  | _ => 0

abbrev bufTy : (tb : Table) → Fin (tcTables nBuf tb) → BufTy
  | .hbm, ⟨0, _⟩ => ⟨S131328, .f32⟩
  | .hbm, ⟨1, _⟩ => ⟨S131328, .f32⟩
  | .hbm, ⟨2, _⟩ => ⟨S512, .i32⟩
  | .hbm, ⟨3, _⟩ => ⟨S512x1, .i32⟩
  | .hbm, ⟨4, _⟩ => ⟨S512, .i32⟩
  | .hbm, ⟨5, _⟩ => ⟨S1x512, .i32⟩
  | .hbm, ⟨6, _⟩ => ⟨S512x512, .i32⟩
  | .hbm, ⟨7, _⟩ => ⟨S512x512, .i32⟩
  | .hbm, ⟨8, _⟩ => ⟨S512x512, .i1⟩
  | .hbm, ⟨9, _⟩ => ⟨S_, .i32⟩
  | .hbm, ⟨10, _⟩ => ⟨S512x1, .i32⟩
  | .hbm, ⟨11, _⟩ => ⟨S512x1, .i32⟩
  | .hbm, ⟨12, _⟩ => ⟨S_, .i32⟩
  | .hbm, ⟨13, _⟩ => ⟨S512x1, .i32⟩
  | .hbm, ⟨14, _⟩ => ⟨S512x1, .i32⟩
  | .hbm, ⟨15, _⟩ => ⟨S512x1, .i32⟩
  | .hbm, ⟨16, _⟩ => ⟨S_, .i32⟩
  | .hbm, ⟨17, _⟩ => ⟨S_, .i32⟩
  | .hbm, ⟨18, _⟩ => ⟨S512x1, .i32⟩
  | .hbm, ⟨19, _⟩ => ⟨S512x1, .i32⟩
  | .hbm, ⟨20, _⟩ => ⟨S512x1, .i32⟩
  | .hbm, ⟨21, _⟩ => ⟨S_, .i32⟩
  | .hbm, ⟨22, _⟩ => ⟨S512x1, .i32⟩
  | .hbm, ⟨23, _⟩ => ⟨S512x1, .i1⟩
  | .hbm, ⟨24, _⟩ => ⟨S512x1, .i32⟩
  | .hbm, ⟨25, _⟩ => ⟨S512x1, .i32⟩
  | .hbm, ⟨26, _⟩ => ⟨S_, .i32⟩
  | .hbm, ⟨27, _⟩ => ⟨S512x1, .i32⟩
  | .hbm, ⟨28, _⟩ => ⟨S512x1, .i1⟩
  | .hbm, ⟨29, _⟩ => ⟨S512x1, .i1⟩
  | .hbm, ⟨30, _⟩ => ⟨S_, .i32⟩
  | .hbm, ⟨31, _⟩ => ⟨S512x1, .i32⟩
  | .hbm, ⟨32, _⟩ => ⟨S512x1, .i32⟩
  | .hbm, ⟨33, _⟩ => ⟨S512x1, .i32⟩
  | .hbm, ⟨34, _⟩ => ⟨S512x512, .i32⟩
  | .hbm, ⟨35, _⟩ => ⟨S512x512, .i32⟩
  | .hbm, ⟨36, _⟩ => ⟨S512x512, .i32⟩
  | .hbm, ⟨37, _⟩ => ⟨S512x512, .i32⟩
  | .hbm, ⟨38, _⟩ => ⟨S512x512, .i32⟩
  | .hbm, ⟨39, _⟩ => ⟨S_, .i32⟩
  | .hbm, ⟨40, _⟩ => ⟨S_, .i32⟩
  | .hbm, ⟨41, _⟩ => ⟨S512x512, .i32⟩
  | .hbm, ⟨42, _⟩ => ⟨S512x512, .i32⟩
  | .hbm, ⟨43, _⟩ => ⟨S_, .i32⟩
  | .hbm, ⟨44, _⟩ => ⟨S512x512, .i32⟩
  | .hbm, ⟨45, _⟩ => ⟨S512x512, .i1⟩
  | .hbm, ⟨46, _⟩ => ⟨S_, .i32⟩
  | .hbm, ⟨47, _⟩ => ⟨S512x512, .i32⟩
  | .hbm, ⟨48, _⟩ => ⟨S512x512, .i32⟩
  | .hbm, ⟨49, _⟩ => ⟨S512x512, .i32⟩
  | .hbm, ⟨50, _⟩ => ⟨S512x512x1, .i32⟩
  | .hbm, ⟨51, _⟩ => ⟨S512x512, .f32⟩
  | .hbm, ⟨52, _⟩ => ⟨S_, .f32⟩
  | .hbm, ⟨53, _⟩ => ⟨S512x512, .f32⟩
  | .hbm, ⟨54, _⟩ => ⟨S512x512, .f32⟩
  | .hbm, ⟨55, _⟩ => ⟨S512, .i32⟩
  | .hbm, ⟨56, _⟩ => ⟨S512x1, .i32⟩
  | .hbm, ⟨57, _⟩ => ⟨S512, .i32⟩
  | .hbm, ⟨58, _⟩ => ⟨S1x512, .i32⟩
  | .hbm, ⟨59, _⟩ => ⟨S512x512, .i32⟩
  | .hbm, ⟨60, _⟩ => ⟨S512x512, .i32⟩
  | .hbm, ⟨61, _⟩ => ⟨S512x512, .i1⟩
  | .hbm, ⟨62, _⟩ => ⟨S_, .i32⟩
  | .hbm, ⟨63, _⟩ => ⟨S512x1, .i32⟩
  | .hbm, ⟨64, _⟩ => ⟨S512x1, .i32⟩
  | .hbm, ⟨65, _⟩ => ⟨S_, .i32⟩
  | .hbm, ⟨66, _⟩ => ⟨S512x1, .i32⟩
  | .hbm, ⟨67, _⟩ => ⟨S512x1, .i32⟩
  | .hbm, ⟨68, _⟩ => ⟨S512x1, .i32⟩
  | .hbm, ⟨69, _⟩ => ⟨S_, .i32⟩
  | .hbm, ⟨70, _⟩ => ⟨S_, .i32⟩
  | .hbm, ⟨71, _⟩ => ⟨S512x1, .i32⟩
  | .hbm, ⟨72, _⟩ => ⟨S512x1, .i32⟩
  | .hbm, ⟨73, _⟩ => ⟨S512x1, .i32⟩
  | .hbm, ⟨74, _⟩ => ⟨S_, .i32⟩
  | .hbm, ⟨75, _⟩ => ⟨S512x1, .i32⟩
  | .hbm, ⟨76, _⟩ => ⟨S512x1, .i1⟩
  | .hbm, ⟨77, _⟩ => ⟨S512x1, .i32⟩
  | .hbm, ⟨78, _⟩ => ⟨S512x1, .i32⟩
  | .hbm, ⟨79, _⟩ => ⟨S_, .i32⟩
  | .hbm, ⟨80, _⟩ => ⟨S512x1, .i32⟩
  | .hbm, ⟨81, _⟩ => ⟨S512x1, .i1⟩
  | .hbm, ⟨82, _⟩ => ⟨S512x1, .i1⟩
  | .hbm, ⟨83, _⟩ => ⟨S_, .i32⟩
  | .hbm, ⟨84, _⟩ => ⟨S512x1, .i32⟩
  | .hbm, ⟨85, _⟩ => ⟨S512x1, .i32⟩
  | .hbm, ⟨86, _⟩ => ⟨S512x1, .i32⟩
  | .hbm, ⟨87, _⟩ => ⟨S512x512, .i32⟩
  | .hbm, ⟨88, _⟩ => ⟨S512x512, .i32⟩
  | .hbm, ⟨89, _⟩ => ⟨S512x512, .i32⟩
  | .hbm, ⟨90, _⟩ => ⟨S512x512, .i32⟩
  | .hbm, ⟨91, _⟩ => ⟨S512x512, .i32⟩
  | .hbm, ⟨92, _⟩ => ⟨S_, .i32⟩
  | .hbm, ⟨93, _⟩ => ⟨S_, .i32⟩
  | .hbm, ⟨94, _⟩ => ⟨S512x512, .i32⟩
  | .hbm, ⟨95, _⟩ => ⟨S512x512, .i32⟩
  | .hbm, ⟨96, _⟩ => ⟨S_, .i32⟩
  | .hbm, ⟨97, _⟩ => ⟨S512x512, .i32⟩
  | .hbm, ⟨98, _⟩ => ⟨S512x512, .i1⟩
  | .hbm, ⟨99, _⟩ => ⟨S_, .i32⟩
  | .hbm, ⟨100, _⟩ => ⟨S512x512, .i32⟩
  | .hbm, ⟨101, _⟩ => ⟨S512x512, .i32⟩
  | .hbm, ⟨102, _⟩ => ⟨S512x512, .i32⟩
  | .hbm, ⟨103, _⟩ => ⟨S512x512x1, .i32⟩
  | .hbm, ⟨104, _⟩ => ⟨S512x512, .f32⟩
  | .hbm, ⟨105, _⟩ => ⟨S_, .f32⟩
  | .hbm, ⟨106, _⟩ => ⟨S512x512, .f32⟩
  | .hbm, ⟨107, _⟩ => ⟨S512x512, .f32⟩
  | .hbm, ⟨108, _⟩ => ⟨S512x512, .bf16⟩
  | .hbm, ⟨109, _⟩ => ⟨S512x512, .bf16⟩
  | .hbm, ⟨110, _⟩ => ⟨S512x512, .f32⟩
  | .local _ .vmem, ⟨0, _⟩ => ⟨S256x256, .bf16⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | .local _ .vmem, ⟨4, _⟩ => ⟨S256x256, .f32⟩
  | .local _ .vmem, ⟨5, _⟩ => ⟨S256x256, .f32⟩
  | .local _ .vmem, ⟨6, _⟩ => ⟨S256x256, .f32⟩
  | _, _ => ⟨S131328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c_1 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_c_2 : Ref sig .tc := ⟨.hbm, 39, rfl⟩
abbrev main_call1_v0 : Ref sig .tc := ⟨.hbm, 40, rfl⟩
abbrev main_call1_v1 : Ref sig .tc := ⟨.hbm, 41, rfl⟩
abbrev main_v18 : Ref sig .tc := ⟨.hbm, 42, rfl⟩
abbrev main_c_3 : Ref sig .tc := ⟨.hbm, 43, rfl⟩
abbrev main_v19 : Ref sig .tc := ⟨.hbm, 44, rfl⟩
abbrev main_v20 : Ref sig .tc := ⟨.hbm, 45, rfl⟩
abbrev main_c_4 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst : Ref sig .tc := ⟨.hbm, 52, rfl⟩
abbrev main_call2_v0 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_c_5 : Ref sig .tc := ⟨.hbm, 62, rfl⟩
abbrev main_v34 : Ref sig .tc := ⟨.hbm, 63, rfl⟩
abbrev main_v35 : Ref sig .tc := ⟨.hbm, 64, rfl⟩
abbrev main_c_6 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_c_7 : Ref sig .tc := ⟨.hbm, 69, rfl⟩
abbrev main_call3_v0 : Ref sig .tc := ⟨.hbm, 70, rfl⟩
abbrev main_call3_v1 : Ref sig .tc := ⟨.hbm, 71, rfl⟩
abbrev main_call3_v2 : Ref sig .tc := ⟨.hbm, 72, rfl⟩
abbrev main_call3_v3 : Ref sig .tc := ⟨.hbm, 73, rfl⟩
abbrev main_call3_v4 : Ref sig .tc := ⟨.hbm, 74, rfl⟩
abbrev main_call3_v5 : Ref sig .tc := ⟨.hbm, 75, rfl⟩
abbrev main_call3_v6 : Ref sig .tc := ⟨.hbm, 76, rfl⟩
abbrev main_call3_v7 : Ref sig .tc := ⟨.hbm, 77, rfl⟩
abbrev main_call3_v8 : Ref sig .tc := ⟨.hbm, 78, rfl⟩
abbrev main_call3_c : Ref sig .tc := ⟨.hbm, 79, rfl⟩
abbrev main_call3_v9 : Ref sig .tc := ⟨.hbm, 80, rfl⟩
abbrev main_call3_v10 : Ref sig .tc := ⟨.hbm, 81, rfl⟩
abbrev main_call3_v11 : Ref sig .tc := ⟨.hbm, 82, rfl⟩
abbrev main_call3_c_0 : Ref sig .tc := ⟨.hbm, 83, rfl⟩
abbrev main_call3_v12 : Ref sig .tc := ⟨.hbm, 84, rfl⟩
abbrev main_call3_v13 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_c_8 : Ref sig .tc := ⟨.hbm, 92, rfl⟩
abbrev main_call4_v0 : Ref sig .tc := ⟨.hbm, 93, rfl⟩
abbrev main_call4_v1 : Ref sig .tc := ⟨.hbm, 94, rfl⟩
abbrev main_v45 : Ref sig .tc := ⟨.hbm, 95, rfl⟩
abbrev main_c_9 : Ref sig .tc := ⟨.hbm, 96, rfl⟩
abbrev main_v46 : Ref sig .tc := ⟨.hbm, 97, rfl⟩
abbrev main_v47 : Ref sig .tc := ⟨.hbm, 98, rfl⟩
abbrev main_c_10 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_cst_11 : Ref sig .tc := ⟨.hbm, 105, rfl⟩
abbrev main_call5_v0 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bcast_S512_S512x1_0 : S512.BroadcastsInDim S512x1 (![0] : Fin 1 → Fin S512x1.rank)
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  bcast_S512x1_S512x512_0_1 : S512x1.BroadcastsInDim S512x512 (![0, 1] : Fin 2 → Fin S512x512.rank)
  bcast_S_S512x1 : S_.BroadcastsInDim S512x1 (![] : Fin 0 → Fin S512x1.rank)
  bcast_S_S512x512 : S_.BroadcastsInDim S512x512 (![] : Fin 0 → Fin S512x512.rank)
  bcast_S512x512_S512x512x1_0_1 : S512x512.BroadcastsInDim S512x512x1 (![0, 1] : Fin 2 → Fin S512x512x1.rank)
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  gather_S131328_S512x512x1_S512x512_n_0_n_n_0_2_1_wf : GatherDims.WF S131328 S512x512x1 S512x512 [] [0] [] [0] [] 2 ![1]
  dot_S256x256_S256x256_S256x256_1_0_0_1_n_n_wf : DotDims.WF S256x256 S256x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S512x512.size a
  hwx0_0 : ∀ i : grid0.Coords, EltTy.bits .bf16 = 32 ∨ (Rect.block (s := S512x512) S256x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S512x512.size a
  hwx0_1 : ∀ i : grid0.Coords, EltTy.bits .bf16 = 32 ∨ (Rect.block (s := S512x512) S256x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S512x512.size a
  hwx0_2 : ∀ i : grid0.Coords, EltTy.bits .f32 = 32 ∨ (Rect.block (s := S512x512) S256x256.size (cc0_transform_2 i) (hinb0_2 i)).WholeWords (EltTy.packing .f32)

variable [Facts₀]

def gather_S131328_S512x512x1_S512x512_n_0_n_n_0_2_1 : GatherDims S131328 S512x512x1 S512x512 where
  offsetDims := []
  collapsedSliceDims := [0]
  operandBatchingDims := []
  startIndicesBatchingDims := []
  startIndexMap := [0]
  indexVectorDim := 2
  sliceSizes := ![1]
  wf := gather_S131328_S512x512x1_S512x512_n_0_n_n_0_2_1_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf

abbrev win0_0 : Pipeline.Window sig grid0 :=
  Pipeline.Window.ofSpec (Memref.whole main_v54) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v55) S256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v56) S256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S131328 : Shape := ⟨1, ![131328]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S512x512x1 : Shape := ⟨3, ![512, 512, 1]⟩

abbrev nBuf : Space → Nat
  | .hbm => 109
  | .vmem => 0
  | .smem => 0
  | _ => 0

abbrev bufTy : (tb : Table) → Fin (tcTables nBuf tb) → BufTy
  | .hbm, ⟨0, _⟩ => ⟨S131328, .f32⟩
  | .hbm, ⟨1, _⟩ => ⟨S131328, .f32⟩
  | .hbm, ⟨2, _⟩ => ⟨S512, .i32⟩
  | .hbm, ⟨3, _⟩ => ⟨S512x1, .i32⟩
  | .hbm, ⟨4, _⟩ => ⟨S512, .i32⟩
  | .hbm, ⟨5, _⟩ => ⟨S1x512, .i32⟩
  | .hbm, ⟨6, _⟩ => ⟨S512x512, .i32⟩
  | .hbm, ⟨7, _⟩ => ⟨S512x512, .i32⟩
  | .hbm, ⟨8, _⟩ => ⟨S512x512, .i1⟩
  | .hbm, ⟨9, _⟩ => ⟨S_, .i32⟩
  | .hbm, ⟨10, _⟩ => ⟨S512x1, .i32⟩
  | .hbm, ⟨11, _⟩ => ⟨S512x1, .i32⟩
  | .hbm, ⟨12, _⟩ => ⟨S_, .i32⟩
  | .hbm, ⟨13, _⟩ => ⟨S512x1, .i32⟩
  | .hbm, ⟨14, _⟩ => ⟨S512x1, .i32⟩
  | .hbm, ⟨15, _⟩ => ⟨S512x1, .i32⟩
  | .hbm, ⟨16, _⟩ => ⟨S_, .i32⟩
  | .hbm, ⟨17, _⟩ => ⟨S_, .i32⟩
  | .hbm, ⟨18, _⟩ => ⟨S512x1, .i32⟩
  | .hbm, ⟨19, _⟩ => ⟨S512x1, .i32⟩
  | .hbm, ⟨20, _⟩ => ⟨S512x1, .i32⟩
  | .hbm, ⟨21, _⟩ => ⟨S_, .i32⟩
  | .hbm, ⟨22, _⟩ => ⟨S512x1, .i32⟩
  | .hbm, ⟨23, _⟩ => ⟨S512x1, .i1⟩
  | .hbm, ⟨24, _⟩ => ⟨S512x1, .i32⟩
  | .hbm, ⟨25, _⟩ => ⟨S512x1, .i32⟩
  | .hbm, ⟨26, _⟩ => ⟨S_, .i32⟩
  | .hbm, ⟨27, _⟩ => ⟨S512x1, .i32⟩
  | .hbm, ⟨28, _⟩ => ⟨S512x1, .i1⟩
  | .hbm, ⟨29, _⟩ => ⟨S512x1, .i1⟩
  | .hbm, ⟨30, _⟩ => ⟨S_, .i32⟩
  | .hbm, ⟨31, _⟩ => ⟨S512x1, .i32⟩
  | .hbm, ⟨32, _⟩ => ⟨S512x1, .i32⟩
  | .hbm, ⟨33, _⟩ => ⟨S512x1, .i32⟩
  | .hbm, ⟨34, _⟩ => ⟨S512x512, .i32⟩
  | .hbm, ⟨35, _⟩ => ⟨S512x512, .i32⟩
  | .hbm, ⟨36, _⟩ => ⟨S512x512, .i32⟩
  | .hbm, ⟨37, _⟩ => ⟨S512x512, .i32⟩
  | .hbm, ⟨38, _⟩ => ⟨S512x512, .i32⟩
  | .hbm, ⟨39, _⟩ => ⟨S_, .i32⟩
  | .hbm, ⟨40, _⟩ => ⟨S_, .i32⟩
  | .hbm, ⟨41, _⟩ => ⟨S512x512, .i32⟩
  | .hbm, ⟨42, _⟩ => ⟨S512x512, .i32⟩
  | .hbm, ⟨43, _⟩ => ⟨S_, .i32⟩
  | .hbm, ⟨44, _⟩ => ⟨S512x512, .i32⟩
  | .hbm, ⟨45, _⟩ => ⟨S512x512, .i1⟩
  | .hbm, ⟨46, _⟩ => ⟨S_, .i32⟩
  | .hbm, ⟨47, _⟩ => ⟨S512x512, .i32⟩
  | .hbm, ⟨48, _⟩ => ⟨S512x512, .i32⟩
  | .hbm, ⟨49, _⟩ => ⟨S512x512, .i32⟩
  | .hbm, ⟨50, _⟩ => ⟨S512x512x1, .i32⟩
  | .hbm, ⟨51, _⟩ => ⟨S512x512, .f32⟩
  | .hbm, ⟨52, _⟩ => ⟨S_, .f32⟩
  | .hbm, ⟨53, _⟩ => ⟨S512x512, .f32⟩
  | .hbm, ⟨54, _⟩ => ⟨S512x512, .f32⟩
  | .hbm, ⟨55, _⟩ => ⟨S512, .i32⟩
  | .hbm, ⟨56, _⟩ => ⟨S512x1, .i32⟩
  | .hbm, ⟨57, _⟩ => ⟨S512, .i32⟩
  | .hbm, ⟨58, _⟩ => ⟨S1x512, .i32⟩
  | .hbm, ⟨59, _⟩ => ⟨S512x512, .i32⟩
  | .hbm, ⟨60, _⟩ => ⟨S512x512, .i32⟩
  | .hbm, ⟨61, _⟩ => ⟨S512x512, .i1⟩
  | .hbm, ⟨62, _⟩ => ⟨S_, .i32⟩
  | .hbm, ⟨63, _⟩ => ⟨S512x1, .i32⟩
  | .hbm, ⟨64, _⟩ => ⟨S512x1, .i32⟩
  | .hbm, ⟨65, _⟩ => ⟨S_, .i32⟩
  | .hbm, ⟨66, _⟩ => ⟨S512x1, .i32⟩
  | .hbm, ⟨67, _⟩ => ⟨S512x1, .i32⟩
  | .hbm, ⟨68, _⟩ => ⟨S512x1, .i32⟩
  | .hbm, ⟨69, _⟩ => ⟨S_, .i32⟩
  | .hbm, ⟨70, _⟩ => ⟨S_, .i32⟩
  | .hbm, ⟨71, _⟩ => ⟨S512x1, .i32⟩
  | .hbm, ⟨72, _⟩ => ⟨S512x1, .i32⟩
  | .hbm, ⟨73, _⟩ => ⟨S512x1, .i32⟩
  | .hbm, ⟨74, _⟩ => ⟨S_, .i32⟩
  | .hbm, ⟨75, _⟩ => ⟨S512x1, .i32⟩
  | .hbm, ⟨76, _⟩ => ⟨S512x1, .i1⟩
  | .hbm, ⟨77, _⟩ => ⟨S512x1, .i32⟩
  | .hbm, ⟨78, _⟩ => ⟨S512x1, .i32⟩
  | .hbm, ⟨79, _⟩ => ⟨S_, .i32⟩
  | .hbm, ⟨80, _⟩ => ⟨S512x1, .i32⟩
  | .hbm, ⟨81, _⟩ => ⟨S512x1, .i1⟩
  | .hbm, ⟨82, _⟩ => ⟨S512x1, .i1⟩
  | .hbm, ⟨83, _⟩ => ⟨S_, .i32⟩
  | .hbm, ⟨84, _⟩ => ⟨S512x1, .i32⟩
  | .hbm, ⟨85, _⟩ => ⟨S512x1, .i32⟩
  | .hbm, ⟨86, _⟩ => ⟨S512x1, .i32⟩
  | .hbm, ⟨87, _⟩ => ⟨S512x512, .i32⟩
  | .hbm, ⟨88, _⟩ => ⟨S512x512, .i32⟩
  | .hbm, ⟨89, _⟩ => ⟨S512x512, .i32⟩
  | .hbm, ⟨90, _⟩ => ⟨S512x512, .i32⟩
  | .hbm, ⟨91, _⟩ => ⟨S512x512, .i32⟩
  | .hbm, ⟨92, _⟩ => ⟨S_, .i32⟩
  | .hbm, ⟨93, _⟩ => ⟨S_, .i32⟩
  | .hbm, ⟨94, _⟩ => ⟨S512x512, .i32⟩
  | .hbm, ⟨95, _⟩ => ⟨S512x512, .i32⟩
  | .hbm, ⟨96, _⟩ => ⟨S_, .i32⟩
  | .hbm, ⟨97, _⟩ => ⟨S512x512, .i32⟩
  | .hbm, ⟨98, _⟩ => ⟨S512x512, .i1⟩
  | .hbm, ⟨99, _⟩ => ⟨S_, .i32⟩
  | .hbm, ⟨100, _⟩ => ⟨S512x512, .i32⟩
  | .hbm, ⟨101, _⟩ => ⟨S512x512, .i32⟩
  | .hbm, ⟨102, _⟩ => ⟨S512x512, .i32⟩
  | .hbm, ⟨103, _⟩ => ⟨S512x512x1, .i32⟩
  | .hbm, ⟨104, _⟩ => ⟨S512x512, .f32⟩
  | .hbm, ⟨105, _⟩ => ⟨S_, .f32⟩
  | .hbm, ⟨106, _⟩ => ⟨S512x512, .f32⟩
  | .hbm, ⟨107, _⟩ => ⟨S512x512, .f32⟩
  | .hbm, ⟨108, _⟩ => ⟨S512x512, .f32⟩
  | _, _ => ⟨S131328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c_1 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_c_2 : Ref sig .tc := ⟨.hbm, 39, rfl⟩
abbrev main_call1_v0 : Ref sig .tc := ⟨.hbm, 40, rfl⟩
abbrev main_call1_v1 : Ref sig .tc := ⟨.hbm, 41, rfl⟩
abbrev main_v18 : Ref sig .tc := ⟨.hbm, 42, rfl⟩
abbrev main_c_3 : Ref sig .tc := ⟨.hbm, 43, rfl⟩
abbrev main_v19 : Ref sig .tc := ⟨.hbm, 44, rfl⟩
abbrev main_v20 : Ref sig .tc := ⟨.hbm, 45, rfl⟩
abbrev main_c_4 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst : Ref sig .tc := ⟨.hbm, 52, rfl⟩
abbrev main_call2_v0 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_c_5 : Ref sig .tc := ⟨.hbm, 62, rfl⟩
abbrev main_v34 : Ref sig .tc := ⟨.hbm, 63, rfl⟩
abbrev main_v35 : Ref sig .tc := ⟨.hbm, 64, rfl⟩
abbrev main_c_6 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_c_7 : Ref sig .tc := ⟨.hbm, 69, rfl⟩
abbrev main_call3_v0 : Ref sig .tc := ⟨.hbm, 70, rfl⟩
abbrev main_call3_v1 : Ref sig .tc := ⟨.hbm, 71, rfl⟩
abbrev main_call3_v2 : Ref sig .tc := ⟨.hbm, 72, rfl⟩
abbrev main_call3_v3 : Ref sig .tc := ⟨.hbm, 73, rfl⟩
abbrev main_call3_v4 : Ref sig .tc := ⟨.hbm, 74, rfl⟩
abbrev main_call3_v5 : Ref sig .tc := ⟨.hbm, 75, rfl⟩
abbrev main_call3_v6 : Ref sig .tc := ⟨.hbm, 76, rfl⟩
abbrev main_call3_v7 : Ref sig .tc := ⟨.hbm, 77, rfl⟩
abbrev main_call3_v8 : Ref sig .tc := ⟨.hbm, 78, rfl⟩
abbrev main_call3_c : Ref sig .tc := ⟨.hbm, 79, rfl⟩
abbrev main_call3_v9 : Ref sig .tc := ⟨.hbm, 80, rfl⟩
abbrev main_call3_v10 : Ref sig .tc := ⟨.hbm, 81, rfl⟩
abbrev main_call3_v11 : Ref sig .tc := ⟨.hbm, 82, rfl⟩
abbrev main_call3_c_0 : Ref sig .tc := ⟨.hbm, 83, rfl⟩
abbrev main_call3_v12 : Ref sig .tc := ⟨.hbm, 84, rfl⟩
abbrev main_call3_v13 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_c_8 : Ref sig .tc := ⟨.hbm, 92, rfl⟩
abbrev main_call4_v0 : Ref sig .tc := ⟨.hbm, 93, rfl⟩
abbrev main_call4_v1 : Ref sig .tc := ⟨.hbm, 94, rfl⟩
abbrev main_v45 : Ref sig .tc := ⟨.hbm, 95, rfl⟩
abbrev main_c_9 : Ref sig .tc := ⟨.hbm, 96, rfl⟩
abbrev main_v46 : Ref sig .tc := ⟨.hbm, 97, rfl⟩
abbrev main_v47 : Ref sig .tc := ⟨.hbm, 98, rfl⟩
abbrev main_c_10 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_cst_11 : Ref sig .tc := ⟨.hbm, 105, rfl⟩
abbrev main_call5_v0 : Ref sig .tc := ⟨.hbm, 106, rfl⟩
abbrev main_v53 : Ref sig .tc := ⟨.hbm, 107, rfl⟩
abbrev main_v54 : Ref sig .tc := ⟨.hbm, 108, rfl⟩

abbrev nD : Nat := 1
abbrev τ : Topo := Topo.v7x

variable {F : FTy → Type} [FloatOps F]

class Facts₀ : Prop where
  bcast_S512_S512x1_0 : S512.BroadcastsInDim S512x1 (![0] : Fin 1 → Fin S512x1.rank)
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  bcast_S512x1_S512x512_0_1 : S512x1.BroadcastsInDim S512x512 (![0, 1] : Fin 2 → Fin S512x512.rank)
  bcast_S_S512x1 : S_.BroadcastsInDim S512x1 (![] : Fin 0 → Fin S512x1.rank)
  bcast_S_S512x512 : S_.BroadcastsInDim S512x512 (![] : Fin 0 → Fin S512x512.rank)
  bcast_S512x512_S512x512x1_0_1 : S512x512.BroadcastsInDim S512x512x1 (![0, 1] : Fin 2 → Fin S512x512x1.rank)
  gather_S131328_S512x512x1_S512x512_n_0_n_n_0_2_1_wf : GatherDims.WF S131328 S512x512x1 S512x512 [] [0] [] [0] [] 2 ![1]
  dot_S512x512_S512x512_S512x512_1_0_0_1_n_n_wf : DotDims.WF S512x512 S512x512 S512x512 [1] [0] [0] [1] [] []

variable [Facts₀]

def gather_S131328_S512x512x1_S512x512_n_0_n_n_0_2_1 : GatherDims S131328 S512x512x1 S512x512 where
  offsetDims := []
  collapsedSliceDims := [0]
  operandBatchingDims := []
  startIndicesBatchingDims := []
  startIndexMap := [0]
  indexVectorDim := 2
  sliceSizes := ![1]
  wf := gather_S131328_S512x512x1_S512x512_n_0_n_n_0_2_1_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

class Facts : Prop extends Facts₀ where

variable [Facts]
-- ==== Proof.AccSteps.lean ====
/-
  What one grid point leaves behind.

  The kernel body keeps a 256 × 256 accumulator that lives across grid points. At a point whose K coordinate is 0 it first fills the
  accumulator with zeros; at every point it adds the product of its two input blocks into the accumulator; at a point whose K
  coordinate is 1 (the last) it then copies the accumulator into the output block. Read as values: at a first point the accumulator
  ends as (zeros + a · b); at a last point the accumulator and the output block both end as (what the point before left + a · b). The
  arithmetic is the body's own payload term; nothing here depends on the float family.
-/
import proofs.«113385_j5231270166622_1_alg».proof.Proof.Patched.KernelIdeal.Frame
import Idealize.ShloMosaic.Lib.Pipeline.Value

set_option maxRecDepth 16384

noncomputable section

namespace Cert.KernelIdeal.Steps

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The body's loads and stores go through the whole block: the rectangle at offsets (0, 0). -/
theorem hz : (![0, 0] : Fin 2 → Nat) = fun _ => 0 := funext fun a => by fin_cases a <;> rfl

/-- At a first point (K = 0) the accumulator ends as the body's payload over the freshly stored zeros and the two input blocks. -/
theorem acc_first (c : Dev nD) (i : grid0.Coords) (arg3 : Memref sig .tc .vmem S256x256 .bf16) (harg3 : arg3.IsWhole)
    (arg4 : Memref sig .tc .vmem S256x256 .bf16) (harg4 : arg4.IsWhole) (arg5 : Memref sig .tc .vmem S256x256 .f32) (harg5 : arg5.IsWhole)
    (arg6 : Memref sig .tc .vmem S256x256 .f32) (harg6 : arg6.IsWhole) (hc0 : cond0_0 i) (hc1 : ¬cond0_1 i)
    (x0 x1 : Vec F S256x256 .bf16) :
    sout0_A_0 c i arg3 harg3 arg4 harg4 arg5 harg5 arg6 harg6 hc0 hc1 x0 x1 = k0_pay2 (k0_pay1 (F := F)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S256x256) hz, View.readCov_unit_zero (S := S256x256) _ hz]
  simp only [View.readAt_eq_ld, harg3.read_unread, harg4.read_unread, View.ld_unit_zero (S := S256x256) hz]

/-- At a last point (K = 1) the accumulator ends as the body's payload over what the point before left and the two input blocks. -/
theorem acc_last (c : Dev nD) (i : grid0.Coords) (arg3 : Memref sig .tc .vmem S256x256 .bf16) (harg3 : arg3.IsWhole)
    (arg4 : Memref sig .tc .vmem S256x256 .bf16) (harg4 : arg4.IsWhole) (arg5 : Memref sig .tc .vmem S256x256 .f32) (harg5 : arg5.IsWhole)
    (arg6 : Memref sig .tc .vmem S256x256 .f32) (harg6 : arg6.IsWhole) (hc0 : ¬cond0_0 i) (hc1 : cond0_1 i)
    (x0 x1 : Vec F S256x256 .bf16) (xs0 : Vec F S256x256 .f32) :
    sout0_B_0 c i arg3 harg3 arg4 harg4 arg5 harg5 arg6 harg6 hc0 hc1 x0 x1 xs0 = k0_pay2 xs0 x0 x1 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero (S := S256x256) hz]
  simp only [View.readAt_eq_ld, harg3.read_unread, harg4.read_unread, harg6.read_unread, View.ld_unit_zero (S := S256x256) hz]

/-- At a last point the output block ends as the same value: the accumulator, copied. -/
theorem out_last (c : Dev nD) (i : grid0.Coords) (arg3 : Memref sig .tc .vmem S256x256 .bf16) (harg3 : arg3.IsWhole)
    (arg4 : Memref sig .tc .vmem S256x256 .bf16) (harg4 : arg4.IsWhole) (arg5 : Memref sig .tc .vmem S256x256 .f32) (harg5 : arg5.IsWhole)
    (arg6 : Memref sig .tc .vmem S256x256 .f32) (harg6 : arg6.IsWhole) (hc0 : ¬cond0_0 i) (hc1 : cond0_1 i)
    (x0 x1 : Vec F S256x256 .bf16) (xs0 : Vec F S256x256 .f32) :
    out0_B_2 c i arg3 harg3 arg4 harg4 arg5 harg5 arg6 harg6 hc0 hc1 x0 x1 xs0 = k0_pay2 xs0 x0 x1 := by
  unfold out0_B_2
  rw [View.read_writes_eq_canon _ _ _ (cover0_B_2 c i arg3 harg3 arg4 harg4 arg5 harg5 arg6 harg6 hc0 hc1 x0 x1 xs0)]
  unfold kernelRun0_B
  dsimp only
  sl_unfold_words
  rw [View.canon_unit_zero (S := S256x256) hz]
  simp only [View.readAt_eq_ld, harg3.read_unread, harg4.read_unread, harg6.read_unread, View.ld_unit_zero (S := S256x256) hz,
    View.readCov_unit_zero (S := S256x256) _ hz]

end Cert.KernelIdeal.Steps

end
-- ==== Proof.LibSideBySide.lean ====
/-
  Two matrix products with a common right factor, laid side by side.

  Over the extended reals, entry (a, b) of the product of an r×k matrix A with a k×n matrix B is the sum over the
  contracted coordinate c of A(a, c) · B(c, b). No rounding and no order of summation is left in it: addition on the
  extended reals is commutative and associative, so the sum is a plain finite sum and nothing here asks that an entry be
  finite.

  A kernel forms such a product on the matrix unit, accumulating into a zero block; the host forms it by a
  dot_general with no accumulator. At the ideal values both are that sum (`kernelProduct_apply`, `hostProduct_apply`),
  whatever float formats the factors were narrowed to on the way, a change of format being the identity there.

  `sideBySide A₁ A₂ B` is the r×w array whose columns 0 … n−1 hold A₁·B and whose columns n … 2n−1 hold A₂·B: what
  concatenating the two products along the column axis gives (`concatenate_products`), and equally what writing one product
  into the left half of a block and the other into the right half gives. Row p of either product depends on row p of its left
  factor alone, so a block of rows of the side-by-side array is the side-by-side array of the blocks of rows (`sideBySide_rows`).
-/
import Idealize.ShloMosaic.Lib.StackMember

noncomputable section

namespace SideBySide

open Idealize.ShloMosaic Idealize.ShloMosaic.ValueIdx

variable {r k n w : Nat}

/-- Entry (a, b) of the product A·B of an r×k and a k×n matrix of extended reals. -/
def entry (A : (⟨2, ![r, k]⟩ : Shape).Idx → EReal) (B : (⟨2, ![k, n]⟩ : Shape).Idx → EReal) (a : Fin r) (b : Fin n) : EReal :=
  ∑ c : Fin k, A (ix2 a c) * B (ix2 c b)

/-- The host's product of an r×k by a k×n matrix (rows by columns, one contracted axis), read at (a, b), is that entry. The
    dimension numbers are given as a record equal to the plain one, so that a program's own record fits. -/
theorem hostProduct_apply {φ₁ φ₂ : FTy} (d : DotDims ⟨2, ![r, k]⟩ ⟨2, ![k, n]⟩ ⟨2, ![r, n]⟩) (hd : d = DotDims.plain r k n)
    (prec : Option ContractPrecision) (A : FVec Ideal ⟨2, ![r, k]⟩ φ₁) (B : FVec Ideal ⟨2, ![k, n]⟩ φ₂) (a : Fin r) (b : Fin n) :
    Host.dotGeneral d prec A B (ix2 a b) = entry A B a b := by
  subst hd
  exact StackMember.dotGeneral_plain_apply prec A B a b

/-- The matrix unit's product accumulated into a zero block, read at (a, b), is the same entry: the zero contributes
    nothing to the sum. -/
theorem kernelProduct_apply {φ₁ φ₂ : FTy} (d : DotDims ⟨2, ![r, k]⟩ ⟨2, ![k, n]⟩ ⟨2, ![r, n]⟩) (hd : d = DotDims.plain r k n)
    (prec : Option ContractPrecision) (A : FVec Ideal ⟨2, ![r, k]⟩ φ₁) (B : FVec Ideal ⟨2, ![k, n]⟩ φ₂) (a : Fin r) (b : Fin n) :
    matmul d prec A B (constant (F := Ideal) ⟨2, ![r, n]⟩ .f32 0x00000000#32) (ix2 a b) = entry A B a b := by
  rw [matmul_zero_eq_dotGeneral]
  exact hostProduct_apply d hd prec A B a b

/-- The r×w array with A₁·B in columns 0 … n−1 and A₂·B in columns n … 2n−1 (zero in any column past 2n−1, of which an
    array of width 2n has none). -/
def sideBySide (A₁ A₂ : (⟨2, ![r, k]⟩ : Shape).Idx → EReal) (B : (⟨2, ![k, n]⟩ : Shape).Idx → EReal) :
    (⟨2, ![r, w]⟩ : Shape).Idx → EReal := fun j =>
  if h : (j 1).val < n then entry A₁ B (j 0) ⟨(j 1).val, h⟩
  else if h' : (j 1).val - n < n then entry A₂ B (j 0) ⟨(j 1).val - n, h'⟩ else 0

/-- A column of the left half reads the first product. -/
theorem sideBySide_left (A₁ A₂ : (⟨2, ![r, k]⟩ : Shape).Idx → EReal) (B : (⟨2, ![k, n]⟩ : Shape).Idx → EReal)
    (a : Fin r) (b : Fin w) (hb : b.val < n) :
    sideBySide (w := w) A₁ A₂ B (ix2 a b) = entry A₁ B a ⟨b.val, hb⟩ := by
  show (if h : b.val < n then entry A₁ B a ⟨b.val, h⟩
    else if h' : b.val - n < n then entry A₂ B a ⟨b.val - n, h'⟩ else 0) = _
  rw [dif_pos hb]

/-- A column of the right half reads the second product, n columns to the left. -/
theorem sideBySide_right (A₁ A₂ : (⟨2, ![r, k]⟩ : Shape).Idx → EReal) (B : (⟨2, ![k, n]⟩ : Shape).Idx → EReal)
    (a : Fin r) (b : Fin w) (hb : n ≤ b.val) (hb' : b.val - n < n) :
    sideBySide (w := w) A₁ A₂ B (ix2 a b) = entry A₂ B a ⟨b.val - n, hb'⟩ := by
  show (if h : b.val < n then entry A₁ B a ⟨b.val, h⟩
    else if h' : b.val - n < n then entry A₂ B a ⟨b.val - n, h'⟩ else 0) = _
  rw [dif_neg (Nat.not_lt.2 hb), dif_pos hb']

/-- A column past both halves reads zero. -/
theorem sideBySide_beyond (A₁ A₂ : (⟨2, ![r, k]⟩ : Shape).Idx → EReal) (B : (⟨2, ![k, n]⟩ : Shape).Idx → EReal)
    (a : Fin r) (b : Fin w) (hb : ¬ b.val < n) (hb' : ¬ b.val - n < n) :
    sideBySide (w := w) A₁ A₂ B (ix2 a b) = 0 := by
  show (if h : b.val < n then entry A₁ B a ⟨b.val, h⟩
    else if h' : b.val - n < n then entry A₂ B a ⟨b.val - n, h'⟩ else 0) = _
  rw [dif_neg hb, dif_neg hb']

/-- A block of rows of the side-by-side array is the side-by-side array of that block of rows of each left factor: row p
    of a product depends on row p of its left factor only. Here a₁ and a₂ are rows off … off + r − 1 of A₁ and A₂. -/
theorem sideBySide_rows {R : Nat} (A₁ A₂ : (⟨2, ![R, k]⟩ : Shape).Idx → EReal) (B : (⟨2, ![k, n]⟩ : Shape).Idx → EReal)
    (a₁ a₂ : (⟨2, ![r, k]⟩ : Shape).Idx → EReal) (off : Nat) (hoff : off + r ≤ R)
    (h₁ : ∀ (p : Fin r) (c : Fin k), a₁ (ix2 p c) = A₁ (ix2 ⟨off + p.val, by have := p.isLt; omega⟩ c))
    (h₂ : ∀ (p : Fin r) (c : Fin k), a₂ (ix2 p c) = A₂ (ix2 ⟨off + p.val, by have := p.isLt; omega⟩ c))
    (p : Fin r) (b : Fin w) :
    sideBySide (w := w) a₁ a₂ B (ix2 p b)
      = sideBySide (w := w) A₁ A₂ B (ix2 ⟨off + p.val, by have := p.isLt; omega⟩ b) := by
  have e₁ : ∀ q : Fin n, entry a₁ B p q = entry A₁ B ⟨off + p.val, by have := p.isLt; omega⟩ q := fun q => by
    unfold entry; exact Finset.sum_congr rfl fun c _ => by rw [h₁]
  have e₂ : ∀ q : Fin n, entry a₂ B p q = entry A₂ B ⟨off + p.val, by have := p.isLt; omega⟩ q := fun q => by
    unfold entry; exact Finset.sum_congr rfl fun c _ => by rw [h₂]
  by_cases hb : b.val < n
  · rw [sideBySide_left _ _ _ _ _ hb, sideBySide_left _ _ _ _ _ hb, e₁]
  · by_cases hb' : b.val - n < n
    · rw [sideBySide_right _ _ _ _ _ (Nat.not_lt.1 hb) hb', sideBySide_right _ _ _ _ _ (Nat.not_lt.1 hb) hb', e₂]
    · rw [sideBySide_beyond _ _ _ _ _ hb hb', sideBySide_beyond _ _ _ _ _ hb hb']

/-- The host's two products concatenated along the column axis are the two products side by side. -/
theorem concatenate_products {φ₁ φ₂ : FTy} (d : DotDims ⟨2, ![r, k]⟩ ⟨2, ![k, n]⟩ ⟨2, ![r, n]⟩) (hd : d = DotDims.plain r k n)
    (prec : Option ContractPrecision) (A₁ A₂ : FVec Ideal ⟨2, ![r, k]⟩ φ₁) (B : FVec Ideal ⟨2, ![k, n]⟩ φ₂)
    (hw : w = n + n)
    (h : Shape.Concatenates [(⟨2, ![r, n]⟩ : Shape), (⟨2, ![r, n]⟩ : Shape)] (⟨2, ![r, w]⟩ : Shape) 1) :
    concatenate (⟨2, ![r, w]⟩ : Shape) 1
        [⟨(⟨2, ![r, n]⟩ : Shape), Host.dotGeneral d prec A₁ B⟩, ⟨(⟨2, ![r, n]⟩ : Shape), Host.dotGeneral d prec A₂ B⟩] h
      = sideBySide (w := w) A₁ A₂ B := by
  funext j
  obtain ⟨a, b, rfl⟩ : ∃ (a : Fin r) (b : Fin w), j = ix2 a b := ⟨j 0, j 1, eq_ix2 j⟩
  by_cases hb : b.val < n
  · rw [sideBySide_left A₁ A₂ B a b hb, ← hostProduct_apply d hd prec A₁ B a ⟨b.val, hb⟩]
    exact concatenate_pair_apply_left 1 _ _ h (ix2 a b) rfl (ix2 a ⟨b.val, hb⟩)
      (fun q => by match q with | ⟨0, _⟩ => rfl | ⟨1, _⟩ => rfl)
  · have hb1 : n ≤ b.val := Nat.not_lt.1 hb
    have hb2 : b.val - n < n := by have := b.isLt; omega
    rw [sideBySide_right A₁ A₂ B a b hb1 hb2, ← hostProduct_apply d hd prec A₂ B a ⟨b.val - n, hb2⟩]
    exact concatenate_pair_apply_right 1 _ _ h (ix2 a b) rfl rfl (ix2 a ⟨b.val - n, hb2⟩)
      (fun q hq => by
        match q with
        | ⟨0, _⟩ => rfl
        | ⟨1, _⟩ => exact absurd rfl hq)
      (by show (b.val - n) + n = b.val; omega)

end SideBySide

end
-- ==== Proof.BlockedProduct.lean ====
/-
  A matrix product taken in two halves of the contracted coordinate.

  Entry (a, b) of the product of two 512 × 512 matrices of extended reals is the sum over c = 0 … 511 of A(a, c) · B(c, b).
  Cut the range of c at 256: the sum is the part the coordinates 0 … 255 contribute plus the part 256 … 511 contribute. Only
  the associativity of a finite sum is used, which the extended reals have with their infinities, so nothing asks that an
  entry be finite. A kernel that walks the contracted axis in two blocks of 256 and adds each block's product into an
  accumulator forms exactly these two parts.
-/
import proofs.«113385_j5231270166622_1_alg».proof.Proof.LibSideBySide

noncomputable section

namespace BlockedProduct

open Idealize.ShloMosaic Idealize.ShloMosaic.ValueIdx

/-- What the contracted coordinates 256 s … 256 s + 255 contribute to entry (a, b) of A · B, for s = 0 and s = 1 (nothing
    for a larger s: there is no such half). -/
def part (A B : (⟨2, ![512, 512]⟩ : Shape).Idx → EReal) (a b : Fin 512) (s : Nat) : EReal :=
  if h : s < 2 then
    ∑ k : Fin 256, A (ix2 a ⟨256 * s + k.val, by have := k.isLt; omega⟩) * B (ix2 ⟨256 * s + k.val, by have := k.isLt; omega⟩ b)
  else 0

/-- The entry is the sum of its two parts. -/
theorem entry_eq_parts (A B : (⟨2, ![512, 512]⟩ : Shape).Idx → EReal) (a b : Fin 512) :
    SideBySide.entry A B a b = part A B a b 0 + part A B a b 1 := by
  have h := Fin.sum_univ_add (M := EReal) (a := 256) (b := 256) (fun c : Fin 512 => A (ix2 a c) * B (ix2 c b))
  unfold part
  rw [dif_pos (by decide), dif_pos (by decide)]
  refine h.trans (congrArg₂ (· + ·) (Finset.sum_congr rfl fun k _ => ?_) (Finset.sum_congr rfl fun k _ => ?_))
  · have e : (Fin.castAdd 256 k : Fin 512) = ⟨256 * 0 + k.val, by have := k.isLt; omega⟩ := Fin.ext (by show k.val = 256 * 0 + k.val; omega)
    show A (ix2 a (Fin.castAdd 256 k)) * B (ix2 (Fin.castAdd 256 k) b) = _
    rw [e]
  · have e : (Fin.natAdd 256 k : Fin 512) = ⟨256 * 1 + k.val, by have := k.isLt; omega⟩ := Fin.ext (by show 256 + k.val = 256 * 1 + k.val; omega)
    show A (ix2 a (Fin.natAdd 256 k)) * B (ix2 (Fin.natAdd 256 k) b) = _
    rw [e]

end BlockedProduct

end
-- ==== Proof.FinalArray.lean ====
/-
  What the kernel's output array holds after the run.

  The grid is 2 × 2 × 2: a point (I, J, K) works on block row I of the left array, block column J of the right array and the K-th half
  of the contracted coordinate, all blocks 256 × 256; points run with K fastest. The accumulator is zeroed at K = 0 and gets the product of
  the point's two blocks added at K = 0 and again at K = 1, and at K = 1 it is copied to output block (I, J), which is written back there
  and only there. So output block (I, J) ends as 0 + (first halves' product) + (second halves' product): entry by entry the two parts of
  the full product's entry, which add up to it. The four blocks written back tile the 512 × 512 output, so the whole array is the product
  of the two window arrays, entry by entry.
-/
import proofs.«113385_j5231270166622_1_alg».proof.Proof.Patched.KernelIdeal.Value
import proofs.«113385_j5231270166622_1_alg».proof.Proof.AccSteps
import proofs.«113385_j5231270166622_1_alg».proof.Proof.BlockedProduct
import Idealize.ShloMosaic.Lib.ValueIdx
import Idealize.ShloMosaic.PureOps.Ideal.Laws

set_option maxRecDepth 16384

noncomputable section

namespace Cert.KernelIdeal.Final

open Cert.KernelIdeal Cert.KernelIdeal.Gen Cert.KernelIdeal.GenP Cert.KernelIdeal.ValueP
open Idealize.ShloMosaic Idealize.ShloMosaic.TcCoe Idealize.SL.Sem Idealize.ShloMosaic.ValueIdx
open Idealize.ShloMosaic.Pipeline (Dat)

/-! ## The body's arithmetic at an entry -/

/-- The body's matrix product is the plain rows-by-columns one. -/
theorem dot_plain : dot_S256x256_S256x256_S256x256_1_0_0_1_n_n = DotDims.plain 256 256 256 := rfl

/-- The zero fill reads zero at every entry. -/
theorem zeros_apply (j : S256x256.Idx) : k0_pay1 (F := Ideal) j = 0 := by
  show shapeCast S256x256 (broadcast S256x256 (Scalar.ofBits (F := Ideal) .f32 0x00000000#32)) shapeCasts_S256x256_S256x256 j = 0
  rw [shapeCast_self]
  exact Ideal.ofBits_zero_f32

/-- One accumulation step at entry (p, q): what was there plus the entry of the two blocks' product. -/
theorem step_apply (acc : Vec Ideal S256x256 .f32) (a b : Vec Ideal S256x256 .bf16) (p q : Fin 256) :
    k0_pay2 acc a b (ix2 p q) = acc (ix2 p q) + SideBySide.entry a b p q := by
  show shapeCast S256x256 (addf acc (matmul dot_S256x256_S256x256_S256x256_1_0_0_1_n_n none (shapeCast S256x256 a shapeCasts_S256x256_S256x256)
    (shapeCast S256x256 b shapeCasts_S256x256_S256x256) (constant (F := Ideal) S256x256 .f32 0x00000000#32))) shapeCasts_S256x256_S256x256 (ix2 p q) = _
  rw [shapeCast_self, shapeCast_self, shapeCast_self, addf_apply, SideBySide.kernelProduct_apply _ dot_plain]

/-- A block of the output after both steps. If the four input blocks are the (I, 0), (0, J), (I, 1), (1, J) blocks of two 512 × 512 arrays,
    entry (p, q) of the accumulated block is entry (256 I + p, 256 J + q) of the arrays' product: zero, plus the part the first half of the
    contracted coordinate contributes, plus the part the second half does. -/
theorem block_value (Au Bu : (⟨2, ![512, 512]⟩ : Shape).Idx → EReal) (a0 b0 a1 b1 : Vec Ideal S256x256 .bf16) (I J : Nat) (hI : I < 2) (hJ : J < 2)
    (ha0 : ∀ p k : Fin 256, a0 (ix2 p k) = Au (ix2 ⟨256 * I + p.val, by have := p.isLt; omega⟩ ⟨256 * 0 + k.val, by have := k.isLt; omega⟩))
    (hb0 : ∀ k q : Fin 256, b0 (ix2 k q) = Bu (ix2 ⟨256 * 0 + k.val, by have := k.isLt; omega⟩ ⟨256 * J + q.val, by have := q.isLt; omega⟩))
    (ha1 : ∀ p k : Fin 256, a1 (ix2 p k) = Au (ix2 ⟨256 * I + p.val, by have := p.isLt; omega⟩ ⟨256 * 1 + k.val, by have := k.isLt; omega⟩))
    (hb1 : ∀ k q : Fin 256, b1 (ix2 k q) = Bu (ix2 ⟨256 * 1 + k.val, by have := k.isLt; omega⟩ ⟨256 * J + q.val, by have := q.isLt; omega⟩))
    (j : S256x256.Idx) :
    k0_pay2 (k0_pay2 (k0_pay1 (F := Ideal)) a0 b0) a1 b1 j
      = SideBySide.entry Au Bu ⟨256 * I + (j 0).val, by have := idx2_lt0 j; omega⟩ ⟨256 * J + (j 1).val, by have := idx2_lt1 j; omega⟩ := by
  obtain ⟨p, q, rfl⟩ : ∃ (p q : Fin 256), j = ix2 p q := ⟨j 0, j 1, eq_ix2 j⟩
  rw [step_apply, step_apply, zeros_apply, zero_add, BlockedProduct.entry_eq_parts Au Bu]
  unfold BlockedProduct.part SideBySide.entry
  rw [dif_pos (by decide), dif_pos (by decide)]
  congr 1 <;> refine Finset.sum_congr rfl fun k _ => ?_
  · exact congrArg₂ (· * ·) (ha0 p k) (hb0 k q)
  · exact congrArg₂ (· * ·) (ha1 p k) (hb1 k q)

/-! ## The blocks the points read and write -/

variable (m : (ℓ : Loc nD τ sig) → Buf (Elt Ideal) ℓ) (ρ : Dev nD → PrngReg)

/-- The printed index maps, decided over the grid: point t = 4 I + 2 J + K reads block (I, K) of the left array and block (K, J) of the
    right one, and its output block is (I, J). -/
theorem idx_facts : ∀ t : Fin cfg0.N,
    win0_0.index t (0 : Fin 2) = t.val / 4 ∧ win0_0.index t (1 : Fin 2) = t.val % 2
    ∧ win0_1.index t (0 : Fin 2) = t.val % 2 ∧ win0_1.index t (1 : Fin 2) = t.val / 2 % 2
    ∧ win0_2.index t (0 : Fin 2) = t.val / 4 ∧ win0_2.index t (1 : Fin 2) = t.val / 2 % 2 :=
  (by decide +kernel : ∀ t : Fin grid0.N, _)

/-- Every output block is some last point's. -/
theorem idx_onto : ∀ (q0 q1 : Fin 2), ∃ t : Fin cfg0.N, t.val % 2 = 1 ∧ win0_2.index t = ![q0.val, q1.val] :=
  (by decide +kernel : ∀ (q0 q1 : Fin 2), ∃ t : Fin grid0.N, t.val % 2 = 1 ∧ win0_2.index t = ![q0.val, q1.val])

/-- The left array as the region finds it, and the right one. -/
abbrev Au (c : Dev nD) : (⟨2, ![512, 512]⟩ : Shape).Idx → EReal := V m c main_v54
abbrev Bu (c : Dev nD) : (⟨2, ![512, 512]⟩ : Shape).Idx → EReal := V m c main_v55

/-- The left input block at a point is block (I, K) of the left array. -/
theorem left_blk (c : Dev nD) (t : Fin cfg0.N) (I K : Nat) (hI : win0_0.index t (0 : Fin 2) = I) (hK : win0_0.index t (1 : Fin 2) = K)
    (hI2 : I < 2) (hK2 : K < 2) (p k : Fin 256) :
    (iblk m c 0 t : Vec Ideal S256x256 .bf16) (ix2 p k)
      = Au m c (ix2 ⟨256 * I + p.val, by have := p.isLt; omega⟩ ⟨256 * K + k.val, by have := k.isLt; omega⟩) := by
  unfold iblk
  rw [View.read_apply]
  show V m c main_v54 _ = V m c main_v54 _
  congr 1
  funext a
  apply Fin.ext
  match a with
  | ⟨0, _⟩ => show win0_0.index t (0 : Fin 2) * 256 + 1 * p.val = 256 * I + p.val; rw [hI]; omega
  | ⟨1, _⟩ => show win0_0.index t (1 : Fin 2) * 256 + 1 * k.val = 256 * K + k.val; rw [hK]; omega

/-- The right input block at a point is block (K, J) of the right array. -/
theorem right_blk (c : Dev nD) (t : Fin cfg0.N) (K J : Nat) (hK : win0_1.index t (0 : Fin 2) = K) (hJ : win0_1.index t (1 : Fin 2) = J)
    (hK2 : K < 2) (hJ2 : J < 2) (k q : Fin 256) :
    (iblk m c 1 t : Vec Ideal S256x256 .bf16) (ix2 k q)
      = Bu m c (ix2 ⟨256 * K + k.val, by have := k.isLt; omega⟩ ⟨256 * J + q.val, by have := q.isLt; omega⟩) := by
  unfold iblk
  rw [View.read_apply]
  show V m c main_v55 _ = V m c main_v55 _
  congr 1
  funext a
  apply Fin.ext
  match a with
  | ⟨0, _⟩ => show win0_1.index t (0 : Fin 2) * 256 + 1 * k.val = 256 * K + k.val; rw [hK]; omega
  | ⟨1, _⟩ => show win0_1.index t (1 : Fin 2) * 256 + 1 * q.val = 256 * J + q.val; rw [hJ]; omega

/-- The product of the two window arrays, entry by entry. -/
abbrev product (c : Dev nD) : S512x512.Idx → EReal := fun i => SideBySide.entry (Au m c) (Bu m c) (i 0) (i 1)

/-! ## What a last point writes back, the cover, and the array after the run -/

/-- The two input blocks at a point, at their literal type. -/
abbrev lblk (c : Dev nD) (t : Fin cfg0.N) : Vec Ideal S256x256 .bf16 := iblk m c 0 t
abbrev rblk (c : Dev nD) (t : Fin cfg0.N) : Vec Ideal S256x256 .bf16 := iblk m c 1 t

/-- WHAT A LAST POINT WRITES BACK is its block of the product: the point before (same I and J, K = 0) left zero plus the first halves'
    product in the accumulator, this point (K = 1) adds the second halves' product and copies the sum to the output block. -/
theorem flushed_eq (c : Dev nD) (t : Fin cfg0.N) (hf : (cfg0.win 2).flush t = true) :
    (dats m 0 c).flushed 2 t = ((cfg0.win 2).blk t).view.read (Elt Ideal) (product m c) := by
  have h1 : t.val % 2 = 1 := (flush0_2 t).mp hf
  have h0 : ¬t.val % 2 = 0 := by omega
  have hN : t.val < 8 := lt_of_lt_of_eq t.isLt (show cfg0.N = 8 from N_0)
  have hp : t.val - 1 < cfg0.N := Nat.lt_of_le_of_lt (Nat.sub_le _ _) t.isLt
  obtain ⟨e0, e1, e2, e3, e4, e5⟩ := idx_facts t
  obtain ⟨f0, f1, f2, f3, f4, f5⟩ := idx_facts ⟨t.val - 1, hp⟩
  have hprev : (outsAt0 m c (t.val - 1) hp).2 = k0_pay2 (k0_pay1 (F := Ideal)) (lblk m c ⟨t.val - 1, hp⟩) (rblk m c ⟨t.val - 1, hp⟩) := by
    rw [show outsAt0 m c (t.val - 1) hp = _ from
      outsAt0_A m c ⟨t.val - 1, hp⟩ (by show (t.val - 1) % 2 = 0; omega) (by show ¬(t.val - 1) % 2 = 1; omega)]
    dsimp only
    exact Steps.acc_first ..
  rw [flushed2_B m c t h0 h1, Steps.out_last, hprev]
  funext j
  show k0_pay2 (k0_pay2 (k0_pay1 (F := Ideal)) (lblk m c ⟨t.val - 1, hp⟩) (rblk m c ⟨t.val - 1, hp⟩)) (lblk m c t) (rblk m c t) j
      = SideBySide.entry (Au m c) (Bu m c) ((((cfg0.win 2).blk t).view.emb j) 0) ((((cfg0.win 2).blk t).view.emb j) 1)
  rw [block_value (Au m c) (Bu m c) (lblk m c ⟨t.val - 1, hp⟩) (rblk m c ⟨t.val - 1, hp⟩) (lblk m c t) (rblk m c t) (t.val / 4) (t.val / 2 % 2)
    (by omega) (by omega)
    (fun p k => left_blk m c ⟨t.val - 1, hp⟩ (t.val / 4) 0 (by rw [f0]; show (t.val - 1) / 4 = t.val / 4; omega)
      (by rw [f1]; show (t.val - 1) % 2 = 0; omega) (by omega) (by omega) p k)
    (fun k q => right_blk m c ⟨t.val - 1, hp⟩ 0 (t.val / 2 % 2) (by rw [f2]; show (t.val - 1) % 2 = 0; omega)
      (by rw [f3]; show (t.val - 1) / 2 % 2 = t.val / 2 % 2; omega) (by omega) (by omega) k q)
    (fun p k => left_blk m c t (t.val / 4) 1 e0 (by rw [e1]; omega) (by omega) (by omega) p k)
    (fun k q => right_blk m c t 1 (t.val / 2 % 2) (by rw [e2]; omega) e3 (by omega) (by omega) k q) j]
  congr 1 <;> apply Fin.ext
  · show 256 * (t.val / 4) + (j 0).val = win0_2.index t (0 : Fin 2) * 256 + 1 * (j 0).val
    rw [e4]; omega
  · show 256 * (t.val / 2 % 2) + (j 1).val = win0_2.index t (1 : Fin 2) * 256 + 1 * (j 1).val
    rw [e5]; omega

/-- An index of the output array is in point t's block iff each coordinate is in the block's range on its axis. -/
theorem mem_blk (t : Fin cfg0.N) (i : S512x512.Idx) :
    i ∈ ((cfg0.win 2).blk t).view.set
      ↔ ∀ a : Fin 2, win0_2.index t a * S256x256.size a ≤ (i a).val ∧ (i a).val < win0_2.index t a * S256x256.size a + S256x256.size a := by
  show i ∈ ((View.whole main_v56).slice (win0_2.rect t)).set ↔ _
  rw [View.set_slice_whole, Rect.mem_set_unit]
  exact Iff.rfl

/-- Every entry of the output lies in the block of a point that writes back: entry (r, s) in block (r / 256, s / 256). -/
theorem cover (i : S512x512.Idx) : ∃ t : Fin cfg0.N, (cfg0.win 2).flush t = true ∧ i ∈ ((cfg0.win 2).blk t).view.set := by
  have hi0 : (i 0).val < 512 := idx2_lt0 i
  have hi1 : (i 1).val < 512 := idx2_lt1 i
  obtain ⟨t, ht1, ht⟩ := idx_onto ⟨(i 0).val / 256, by omega⟩ ⟨(i 1).val / 256, by omega⟩
  have q0 : win0_2.index t (0 : Fin 2) = (i 0).val / 256 := congrFun ht 0
  have q1 : win0_2.index t (1 : Fin 2) = (i 1).val / 256 := congrFun ht 1
  refine ⟨t, (flush0_2 t).mpr ht1, ?_⟩
  rw [mem_blk]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 256 ≤ (i 1).val ∧ (i 1).val < win0_2.index t (1 : Fin 2) * 256 + 256; omega

/-- THE OUTPUT ARRAY after the run is the product of the two window arrays. -/
theorem final (c : Dev nD) : (dats m 0 c).arrAt 2 cfg0.N = product m c :=
  (dats m 0 c).arrAt_eq_of_cover 2 (product m c) (flushed_eq m c) cover

/-- The run with the output array named: every weakly fair execution terminates with the output at the product of the two window
    arrays and the arguments unchanged. -/
theorem run : θ_run defs (onTc (τ := τ) (main (F := Ideal))) ⟨m, fun _ => 0, ρ⟩ fun r => ∀ c : Dev nD,
      r.2.mem ((c : Thread nD τ).loc main_v56) = product m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Final

end
-- ==== Proof.Unpack.lean ====
/-
  Unpacking a packed upper-triangular matrix.

  A 512 x 512 upper-triangular matrix is stored row by row without its zero lower part: row i holds the entries (i, i) ... (i, 511),
  so entry (i, j) with j >= i sits at position i(1025 - i)/2 + (j - i) of a vector of 512 * 513 / 2 = 131328 numbers. The dense array
  has that entry where j >= i and zero below the diagonal. On the host this is a chain of integer index arithmetic (two iotas, the
  position computed with a floor division by two, a clamp of the masked positions to 0, jnp's wrap of negative positions), one gather
  and one select against zero. Both programs apply exactly this chain to each of their two arguments, so it is named once here, one
  line per operation, and nothing about it is ever needed beyond its being the same function on both sides.
-/
import Idealize.ShloMosaic.PureOps

noncomputable section

namespace PackedUpper

open Idealize.ShloMosaic

abbrev S131328 : Shape := ⟨1, ![131328]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S512x512x1 : Shape := ⟨3, ![512, 512, 1]⟩

/-- The dense 512 x 512 array of a packed upper-triangular vector: entry (i, j) is the packed entry at i(1025 - i)/2 + (j - i) where
    j >= i and zero elsewhere. The shape relations its operations take, and the gather's dimension record, are arguments. -/
def unpack {F : FTy → Type} [FloatOps F]
    (bcast_S512_S512x1_0 : S512.BroadcastsInDim S512x1 (![0] : Fin 1 → Fin S512x1.rank))
    (bcast_S512_S1x512_1 : S512.BroadcastsInDim S1x512 (![1] : Fin 1 → Fin S1x512.rank))
    (bcast_S1x512_S512x512_0_1 : S1x512.BroadcastsInDim S512x512 (![0, 1] : Fin 2 → Fin S512x512.rank))
    (bcast_S512x1_S512x512_0_1 : S512x1.BroadcastsInDim S512x512 (![0, 1] : Fin 2 → Fin S512x512.rank))
    (bcast_S_S512x1 : S_.BroadcastsInDim S512x1 (![] : Fin 0 → Fin S512x1.rank))
    (bcast_S_S512x512 : S_.BroadcastsInDim S512x512 (![] : Fin 0 → Fin S512x512.rank))
    (bcast_S512x512_S512x512x1_0_1 : S512x512.BroadcastsInDim S512x512x1 (![0, 1] : Fin 2 → Fin S512x512x1.rank))
    (gather_S131328_S512x512x1_S512x512_n_0_n_n_0_2_1 : GatherDims S131328 S512x512x1 S512x512)
    (main_arg0 : FVec F S131328 .f32) : FVec F S512x512 .f32 :=
  let main_v0 : (⟨S512, .i32⟩ : BufTy).Contents (Elt F) := (iotaInDim S512 32 0)
  let main_v1 : (⟨S512x1, .i32⟩ : BufTy).Contents (Elt F) := (broadcastInDim S512x1 ![0] bcast_S512_S512x1_0 : (⟨S512, .i32⟩ : BufTy).Contents (Elt F) → (⟨S512x1, .i32⟩ : BufTy).Contents (Elt F)) main_v0
  let main_v2 : (⟨S512, .i32⟩ : BufTy).Contents (Elt F) := (iotaInDim S512 32 0)
  let main_v3 : (⟨S1x512, .i32⟩ : BufTy).Contents (Elt F) := (broadcastInDim S1x512 ![1] bcast_S512_S1x512_1 : (⟨S512, .i32⟩ : BufTy).Contents (Elt F) → (⟨S1x512, .i32⟩ : BufTy).Contents (Elt F)) main_v2
  let main_v4 : (⟨S512x512, .i32⟩ : BufTy).Contents (Elt F) := (broadcastInDim S512x512 ![0, 1] bcast_S1x512_S512x512_0_1 : (⟨S1x512, .i32⟩ : BufTy).Contents (Elt F) → (⟨S512x512, .i32⟩ : BufTy).Contents (Elt F)) main_v3
  let main_v5 : (⟨S512x512, .i32⟩ : BufTy).Contents (Elt F) := (broadcastInDim S512x512 ![0, 1] bcast_S512x1_S512x512_0_1 : (⟨S512x1, .i32⟩ : BufTy).Contents (Elt F) → (⟨S512x512, .i32⟩ : BufTy).Contents (Elt F)) main_v1
  let main_v6 : (⟨S512x512, .i1⟩ : BufTy).Contents (Elt F) := (cmpi .sge : (⟨S512x512, .i32⟩ : BufTy).Contents (Elt F) → (⟨S512x512, .i32⟩ : BufTy).Contents (Elt F) → (⟨S512x512, .i1⟩ : BufTy).Contents (Elt F)) main_v4 main_v5
  let main_c : (⟨S_, .i32⟩ : BufTy).Contents (Elt F) := (constantI S_ 32 1024#32)
  let main_v7 : (⟨S512x1, .i32⟩ : BufTy).Contents (Elt F) := (broadcastInDim S512x1 ![] bcast_S_S512x1 : (⟨S_, .i32⟩ : BufTy).Contents (Elt F) → (⟨S512x1, .i32⟩ : BufTy).Contents (Elt F)) main_c
  let main_v8 : (⟨S512x1, .i32⟩ : BufTy).Contents (Elt F) := (subi : (⟨S512x1, .i32⟩ : BufTy).Contents (Elt F) → (⟨S512x1, .i32⟩ : BufTy).Contents (Elt F) → (⟨S512x1, .i32⟩ : BufTy).Contents (Elt F)) main_v7 main_v1
  let main_c_0 : (⟨S_, .i32⟩ : BufTy).Contents (Elt F) := (constantI S_ 32 1#32)
  let main_v9 : (⟨S512x1, .i32⟩ : BufTy).Contents (Elt F) := (broadcastInDim S512x1 ![] bcast_S_S512x1 : (⟨S_, .i32⟩ : BufTy).Contents (Elt F) → (⟨S512x1, .i32⟩ : BufTy).Contents (Elt F)) main_c_0
  let main_v10 : (⟨S512x1, .i32⟩ : BufTy).Contents (Elt F) := (addi : (⟨S512x1, .i32⟩ : BufTy).Contents (Elt F) → (⟨S512x1, .i32⟩ : BufTy).Contents (Elt F) → (⟨S512x1, .i32⟩ : BufTy).Contents (Elt F)) main_v8 main_v9
  let main_v11 : (⟨S512x1, .i32⟩ : BufTy).Contents (Elt F) := (muli : (⟨S512x1, .i32⟩ : BufTy).Contents (Elt F) → (⟨S512x1, .i32⟩ : BufTy).Contents (Elt F) → (⟨S512x1, .i32⟩ : BufTy).Contents (Elt F)) main_v1 main_v10
  let main_c_1 : (⟨S_, .i32⟩ : BufTy).Contents (Elt F) := (constantI S_ 32 2#32)
  let main_call0_v0 : (⟨S_, .i32⟩ : BufTy).Contents (Elt F) := id main_c_1
  let main_call0_v1 : (⟨S512x1, .i32⟩ : BufTy).Contents (Elt F) := (broadcastInDim S512x1 ![] bcast_S_S512x1) main_call0_v0
  let main_call0_v2 : (⟨S512x1, .i32⟩ : BufTy).Contents (Elt F) := Host.divsi main_v11 main_call0_v1
  let main_call0_v3 : (⟨S512x1, .i32⟩ : BufTy).Contents (Elt F) := signi main_v11
  let main_call0_v4 : (⟨S_, .i32⟩ : BufTy).Contents (Elt F) := signi main_call0_v0
  let main_call0_v5 : (⟨S512x1, .i32⟩ : BufTy).Contents (Elt F) := (broadcastInDim S512x1 ![] bcast_S_S512x1) main_call0_v4
  let main_call0_v6 : (⟨S512x1, .i1⟩ : BufTy).Contents (Elt F) := (cmpi .ne) main_call0_v3 main_call0_v5
  let main_call0_v7 : (⟨S512x1, .i32⟩ : BufTy).Contents (Elt F) := (broadcastInDim S512x1 ![] bcast_S_S512x1) main_call0_v0
  let main_call0_v8 : (⟨S512x1, .i32⟩ : BufTy).Contents (Elt F) := Host.remsi main_v11 main_call0_v7
  let main_call0_c : (⟨S_, .i32⟩ : BufTy).Contents (Elt F) := (constantI S_ 32 0#32)
  let main_call0_v9 : (⟨S512x1, .i32⟩ : BufTy).Contents (Elt F) := (broadcastInDim S512x1 ![] bcast_S_S512x1) main_call0_c
  let main_call0_v10 : (⟨S512x1, .i1⟩ : BufTy).Contents (Elt F) := (cmpi .ne) main_call0_v8 main_call0_v9
  let main_call0_v11 : (⟨S512x1, .i1⟩ : BufTy).Contents (Elt F) := andi main_call0_v6 main_call0_v10
  let main_call0_c_0 : (⟨S_, .i32⟩ : BufTy).Contents (Elt F) := (constantI S_ 32 1#32)
  let main_call0_v12 : (⟨S512x1, .i32⟩ : BufTy).Contents (Elt F) := (broadcastInDim S512x1 ![] bcast_S_S512x1) main_call0_c_0
  let main_call0_v13 : (⟨S512x1, .i32⟩ : BufTy).Contents (Elt F) := subi main_call0_v2 main_call0_v12
  let main_v12 : (⟨S512x1, .i32⟩ : BufTy).Contents (Elt F) := select main_call0_v11 main_call0_v13 main_call0_v2
  let main_v13 : (⟨S512x512, .i32⟩ : BufTy).Contents (Elt F) := (broadcastInDim S512x512 ![0, 1] bcast_S1x512_S512x512_0_1 : (⟨S1x512, .i32⟩ : BufTy).Contents (Elt F) → (⟨S512x512, .i32⟩ : BufTy).Contents (Elt F)) main_v3
  let main_v14 : (⟨S512x512, .i32⟩ : BufTy).Contents (Elt F) := (broadcastInDim S512x512 ![0, 1] bcast_S512x1_S512x512_0_1 : (⟨S512x1, .i32⟩ : BufTy).Contents (Elt F) → (⟨S512x512, .i32⟩ : BufTy).Contents (Elt F)) main_v1
  let main_v15 : (⟨S512x512, .i32⟩ : BufTy).Contents (Elt F) := (subi : (⟨S512x512, .i32⟩ : BufTy).Contents (Elt F) → (⟨S512x512, .i32⟩ : BufTy).Contents (Elt F) → (⟨S512x512, .i32⟩ : BufTy).Contents (Elt F)) main_v13 main_v14
  let main_v16 : (⟨S512x512, .i32⟩ : BufTy).Contents (Elt F) := (broadcastInDim S512x512 ![0, 1] bcast_S512x1_S512x512_0_1 : (⟨S512x1, .i32⟩ : BufTy).Contents (Elt F) → (⟨S512x512, .i32⟩ : BufTy).Contents (Elt F)) main_v12
  let main_v17 : (⟨S512x512, .i32⟩ : BufTy).Contents (Elt F) := (addi : (⟨S512x512, .i32⟩ : BufTy).Contents (Elt F) → (⟨S512x512, .i32⟩ : BufTy).Contents (Elt F) → (⟨S512x512, .i32⟩ : BufTy).Contents (Elt F)) main_v16 main_v15
  let main_c_2 : (⟨S_, .i32⟩ : BufTy).Contents (Elt F) := (constantI S_ 32 0#32)
  let main_call1_v0 : (⟨S_, .i32⟩ : BufTy).Contents (Elt F) := id main_c_2
  let main_call1_v1 : (⟨S512x512, .i32⟩ : BufTy).Contents (Elt F) := (broadcastInDim S512x512 ![] bcast_S_S512x512) main_call1_v0
  let main_v18 : (⟨S512x512, .i32⟩ : BufTy).Contents (Elt F) := select main_v6 main_v17 main_call1_v1
  let main_c_3 : (⟨S_, .i32⟩ : BufTy).Contents (Elt F) := (constantI S_ 32 0#32)
  let main_v19 : (⟨S512x512, .i32⟩ : BufTy).Contents (Elt F) := (broadcastInDim S512x512 ![] bcast_S_S512x512 : (⟨S_, .i32⟩ : BufTy).Contents (Elt F) → (⟨S512x512, .i32⟩ : BufTy).Contents (Elt F)) main_c_3
  let main_v20 : (⟨S512x512, .i1⟩ : BufTy).Contents (Elt F) := (cmpi .slt : (⟨S512x512, .i32⟩ : BufTy).Contents (Elt F) → (⟨S512x512, .i32⟩ : BufTy).Contents (Elt F) → (⟨S512x512, .i1⟩ : BufTy).Contents (Elt F)) main_v18 main_v19
  let main_c_4 : (⟨S_, .i32⟩ : BufTy).Contents (Elt F) := (constantI S_ 32 131328#32)
  let main_v21 : (⟨S512x512, .i32⟩ : BufTy).Contents (Elt F) := (broadcastInDim S512x512 ![] bcast_S_S512x512 : (⟨S_, .i32⟩ : BufTy).Contents (Elt F) → (⟨S512x512, .i32⟩ : BufTy).Contents (Elt F)) main_c_4
  let main_v22 : (⟨S512x512, .i32⟩ : BufTy).Contents (Elt F) := (addi : (⟨S512x512, .i32⟩ : BufTy).Contents (Elt F) → (⟨S512x512, .i32⟩ : BufTy).Contents (Elt F) → (⟨S512x512, .i32⟩ : BufTy).Contents (Elt F)) main_v18 main_v21
  let main_v23 : (⟨S512x512, .i32⟩ : BufTy).Contents (Elt F) := (select : (⟨S512x512, .i1⟩ : BufTy).Contents (Elt F) → (⟨S512x512, .i32⟩ : BufTy).Contents (Elt F) → (⟨S512x512, .i32⟩ : BufTy).Contents (Elt F) → (⟨S512x512, .i32⟩ : BufTy).Contents (Elt F)) main_v20 main_v22 main_v18
  let main_v24 : (⟨S512x512x1, .i32⟩ : BufTy).Contents (Elt F) := (broadcastInDim S512x512x1 ![0, 1] bcast_S512x512_S512x512x1_0_1 : (⟨S512x512, .i32⟩ : BufTy).Contents (Elt F) → (⟨S512x512x1, .i32⟩ : BufTy).Contents (Elt F)) main_v23
  let main_v25 : (⟨S512x512, .f32⟩ : BufTy).Contents (Elt F) := ((fun x i => Host.gather gather_S131328_S512x512x1_S512x512_n_0_n_n_0_2_1 x i) : (⟨S131328, .f32⟩ : BufTy).Contents (Elt F) → (⟨S512x512x1, .i32⟩ : BufTy).Contents (Elt F) → (⟨S512x512, .f32⟩ : BufTy).Contents (Elt F)) main_arg0 main_v24
  let main_cst : (⟨S_, .f32⟩ : BufTy).Contents (Elt F) := (constant S_ .f32 0x00000000#32)
  let main_call2_v0 : (⟨S512x512, .f32⟩ : BufTy).Contents (Elt F) := (broadcastInDim S512x512 ![] bcast_S_S512x512) main_cst
  let main_v26 : (⟨S512x512, .f32⟩ : BufTy).Contents (Elt F) := select main_v6 main_v25 main_call2_v0
  main_v26

end PackedUpper

end
-- ==== Proof.KernelHost.lean ====
/-
  What the kernel's two input windows hold when the region is entered.

  Before its one launch the kernel program runs the same unpacking as the reference on each argument, then narrows each dense
  array to bf16. So the first input window's array is the narrowed dense array of the first argument and the second's that of the
  second: the fold of the 108 host operations before the region, evaluated at those two buffers.
-/
import proofs.«113385_j5231270166622_1_alg».proof.Proof.Patched.KernelIdeal.Frame.Runs
import proofs.«113385_j5231270166622_1_alg».proof.Proof.Unpack

noncomputable section

namespace Cert.KernelIdeal.HostSide

open Cert.KernelIdeal Cert.KernelIdeal.Gen Cert.KernelIdeal.GenP Idealize.ShloMosaic Idealize.ShloMosaic.TcCoe Idealize.SL.Sem

variable {F : FTy → Type} [FloatOps F]
variable (m : (ℓ : Loc nD τ sig) → Buf (Elt F) ℓ)

/-- The dense array of a packed vector, with this program's shape relations. -/
abbrev dense (p : FVec F S131328 .f32) : FVec F S512x512 .f32 :=
  PackedUpper.unpack bcast_S512_S512x1_0 bcast_S512_S1x512_1 bcast_S1x512_S512x512_0_1 bcast_S512x1_S512x512_0_1 bcast_S_S512x1
    bcast_S_S512x512 bcast_S512x512_S512x512x1_0_1 gather_S131328_S512x512x1_S512x512_n_0_n_n_0_2_1 p

/-- The first input window's array, as the region finds it: the first argument's dense array, narrowed to bf16. -/
theorem left_eq (c : Dev nD) :
    V m c main_v54 = truncf .bf16 (dense (m ((c : Thread nD τ).loc main_arg0))) bitsLt_bf16_f32 := by
  chain_rfl

/-- The second input window's array, as the region finds it: the second argument's dense array, narrowed to bf16. -/
theorem right_eq (c : Dev nD) :
    V m c main_v55 = truncf .bf16 (dense (m ((c : Thread nD τ).loc main_arg1))) bitsLt_bf16_f32 := by
  chain_rfl

end Cert.KernelIdeal.HostSide

end
-- ==== Proof.RefOps.lean ====
/-
  The reference program's @main, laid out as stretches of host operations.

  @main unpacks each of its two packed arguments (two runs of the same 104 operations, the functions jax outlined — the floor
  division and the three selects — written out where they are called) and multiplies the two dense arrays with one dot_general: 209
  operations. Here they are listed in order, cut where a called function begins and ends, and each of @main's two printed windows is
  shown to be the chain of its stretches. The first window, 97 operations long once the calls are written out, is taken in three
  pieces: a chain that ends in a chain is the chain of both lists.
-/
import proofs.«113385_j5231270166622_1_alg».proof.Proof.Gen.ReferenceIdeal
import Idealize.ShloMosaic.Lib.StableHlo.Run
import Idealize.ShloMosaic.Lib.Pipeline.Regions

noncomputable section

namespace Cert.ReferenceIdeal.HostRun

open Cert.ReferenceIdeal Cert.ReferenceIdeal.Gen Idealize.ShloMosaic Idealize.ShloMosaic.TcCoe Idealize.SL.Sem

variable {F : FTy → Type} [FloatOps F]

/-- 15 operations of @main, in order. -/
abbrev main_part0_ops0 : List (HloOp τ sig (Elt F)) :=
  [ StableHlo.nullary main_v0 (iotaInDim S512 32 0),
    StableHlo.unary main_v0 main_v1 (broadcastInDim S512x1 ![0] bcast_S512_S512x1_0 : (⟨S512, .i32⟩ : BufTy).Contents (Elt F) → (⟨S512x1, .i32⟩ : BufTy).Contents (Elt F)),
    StableHlo.nullary main_v2 (iotaInDim S512 32 0),
    StableHlo.unary main_v2 main_v3 (broadcastInDim S1x512 ![1] bcast_S512_S1x512_1 : (⟨S512, .i32⟩ : BufTy).Contents (Elt F) → (⟨S1x512, .i32⟩ : BufTy).Contents (Elt F)),
    StableHlo.unary main_v3 main_v4 (broadcastInDim S512x512 ![0, 1] bcast_S1x512_S512x512_0_1 : (⟨S1x512, .i32⟩ : BufTy).Contents (Elt F) → (⟨S512x512, .i32⟩ : BufTy).Contents (Elt F)),
    StableHlo.unary main_v1 main_v5 (broadcastInDim S512x512 ![0, 1] bcast_S512x1_S512x512_0_1 : (⟨S512x1, .i32⟩ : BufTy).Contents (Elt F) → (⟨S512x512, .i32⟩ : BufTy).Contents (Elt F)),
    StableHlo.binary main_v4 main_v5 main_v6 (cmpi .sge : (⟨S512x512, .i32⟩ : BufTy).Contents (Elt F) → (⟨S512x512, .i32⟩ : BufTy).Contents (Elt F) → (⟨S512x512, .i1⟩ : BufTy).Contents (Elt F)),
    StableHlo.nullary main_c (constantI S_ 32 1024#32),
    StableHlo.unary main_c main_v7 (broadcastInDim S512x1 ![] bcast_S_S512x1 : (⟨S_, .i32⟩ : BufTy).Contents (Elt F) → (⟨S512x1, .i32⟩ : BufTy).Contents (Elt F)),
    StableHlo.binary main_v7 main_v1 main_v8 (subi : (⟨S512x1, .i32⟩ : BufTy).Contents (Elt F) → (⟨S512x1, .i32⟩ : BufTy).Contents (Elt F) → (⟨S512x1, .i32⟩ : BufTy).Contents (Elt F)),
    StableHlo.nullary main_c_0 (constantI S_ 32 1#32),
    StableHlo.unary main_c_0 main_v9 (broadcastInDim S512x1 ![] bcast_S_S512x1 : (⟨S_, .i32⟩ : BufTy).Contents (Elt F) → (⟨S512x1, .i32⟩ : BufTy).Contents (Elt F)),
    StableHlo.binary main_v8 main_v9 main_v10 (addi : (⟨S512x1, .i32⟩ : BufTy).Contents (Elt F) → (⟨S512x1, .i32⟩ : BufTy).Contents (Elt F) → (⟨S512x1, .i32⟩ : BufTy).Contents (Elt F)),
    StableHlo.binary main_v1 main_v10 main_v11 (muli : (⟨S512x1, .i32⟩ : BufTy).Contents (Elt F) → (⟨S512x1, .i32⟩ : BufTy).Contents (Elt F) → (⟨S512x1, .i32⟩ : BufTy).Contents (Elt F)),
    StableHlo.nullary main_c_1 (constantI S_ 32 2#32) ]
/-- Each touches TensorCore references only. -/
theorem main_part0_ops0_sub : (main_part0_ops0 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub ..⟩

/-- 17 operations of @main, in order. -/
abbrev main_part0_ops1 : List (HloOp τ sig (Elt F)) :=
  [ StableHlo.TRef.unary (.of main_c_1 : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S512x1, .i32⟩) (broadcastInDim S512x1 ![] bcast_S_S512x1),
    StableHlo.TRef.binary (.of main_v11 : StableHlo.TRef sig ⟨S512x1, .i32⟩) (.of main_call0_v1 : StableHlo.TRef sig ⟨S512x1, .i32⟩) (.of main_call0_v2 : StableHlo.TRef sig ⟨S512x1, .i32⟩) Host.divsi,
    StableHlo.TRef.unary (.of main_v11 : StableHlo.TRef sig ⟨S512x1, .i32⟩) (.of main_call0_v3 : StableHlo.TRef sig ⟨S512x1, .i32⟩) signi,
    StableHlo.TRef.unary (.of main_call0_v0 : StableHlo.TRef sig ⟨S_, .i32⟩) (.of main_call0_v4 : StableHlo.TRef sig ⟨S_, .i32⟩) signi,
    StableHlo.TRef.unary (.of main_call0_v4 : StableHlo.TRef sig ⟨S_, .i32⟩) (.of main_call0_v5 : StableHlo.TRef sig ⟨S512x1, .i32⟩) (broadcastInDim S512x1 ![] bcast_S_S512x1),
    StableHlo.TRef.binary (.of main_call0_v3 : StableHlo.TRef sig ⟨S512x1, .i32⟩) (.of main_call0_v5 : StableHlo.TRef sig ⟨S512x1, .i32⟩) (.of main_call0_v6 : StableHlo.TRef sig ⟨S512x1, .i1⟩) (cmpi .ne),
    StableHlo.TRef.unary (.of main_call0_v0 : StableHlo.TRef sig ⟨S_, .i32⟩) (.of main_call0_v7 : StableHlo.TRef sig ⟨S512x1, .i32⟩) (broadcastInDim S512x1 ![] bcast_S_S512x1),
    StableHlo.TRef.binary (.of main_v11 : StableHlo.TRef sig ⟨S512x1, .i32⟩) (.of main_call0_v7 : StableHlo.TRef sig ⟨S512x1, .i32⟩) (.of main_call0_v8 : StableHlo.TRef sig ⟨S512x1, .i32⟩) Host.remsi,
    StableHlo.TRef.nullary (.of main_call0_c : StableHlo.TRef sig ⟨S_, .i32⟩) (constantI S_ 32 0#32),
    StableHlo.TRef.unary (.of main_call0_c : StableHlo.TRef sig ⟨S_, .i32⟩) (.of main_call0_v9 : StableHlo.TRef sig ⟨S512x1, .i32⟩) (broadcastInDim S512x1 ![] bcast_S_S512x1),
    StableHlo.TRef.binary (.of main_call0_v8 : StableHlo.TRef sig ⟨S512x1, .i32⟩) (.of main_call0_v9 : StableHlo.TRef sig ⟨S512x1, .i32⟩) (.of main_call0_v10 : StableHlo.TRef sig ⟨S512x1, .i1⟩) (cmpi .ne),
    StableHlo.TRef.binary (.of main_call0_v6 : StableHlo.TRef sig ⟨S512x1, .i1⟩) (.of main_call0_v10 : StableHlo.TRef sig ⟨S512x1, .i1⟩) (.of main_call0_v11 : StableHlo.TRef sig ⟨S512x1, .i1⟩) andi,
    StableHlo.TRef.nullary (.of main_call0_c_0 : StableHlo.TRef sig ⟨S_, .i32⟩) (constantI S_ 32 1#32),
    StableHlo.TRef.unary (.of main_call0_c_0 : StableHlo.TRef sig ⟨S_, .i32⟩) (.of main_call0_v12 : StableHlo.TRef sig ⟨S512x1, .i32⟩) (broadcastInDim S512x1 ![] bcast_S_S512x1),
    StableHlo.TRef.binary (.of main_call0_v2 : StableHlo.TRef sig ⟨S512x1, .i32⟩) (.of main_call0_v12 : StableHlo.TRef sig ⟨S512x1, .i32⟩) (.of main_call0_v13 : StableHlo.TRef sig ⟨S512x1, .i32⟩) subi,
    StableHlo.TRef.ternary (.of main_call0_v11 : StableHlo.TRef sig ⟨S512x1, .i1⟩) (.of main_call0_v13 : StableHlo.TRef sig ⟨S512x1, .i32⟩) (.of main_call0_v2 : StableHlo.TRef sig ⟨S512x1, .i32⟩) (.of main_v12 : StableHlo.TRef sig ⟨S512x1, .i32⟩) select ]
/-- Each touches TensorCore references only. -/
theorem main_part0_ops1_sub : (main_part0_ops1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩

/-- 6 operations of @main, in order. -/
abbrev main_part0_ops2 : List (HloOp τ sig (Elt F)) :=
  [ StableHlo.unary main_v3 main_v13 (broadcastInDim S512x512 ![0, 1] bcast_S1x512_S512x512_0_1 : (⟨S1x512, .i32⟩ : BufTy).Contents (Elt F) → (⟨S512x512, .i32⟩ : BufTy).Contents (Elt F)),
    StableHlo.unary main_v1 main_v14 (broadcastInDim S512x512 ![0, 1] bcast_S512x1_S512x512_0_1 : (⟨S512x1, .i32⟩ : BufTy).Contents (Elt F) → (⟨S512x512, .i32⟩ : BufTy).Contents (Elt F)),
    StableHlo.binary main_v13 main_v14 main_v15 (subi : (⟨S512x512, .i32⟩ : BufTy).Contents (Elt F) → (⟨S512x512, .i32⟩ : BufTy).Contents (Elt F) → (⟨S512x512, .i32⟩ : BufTy).Contents (Elt F)),
    StableHlo.unary main_v12 main_v16 (broadcastInDim S512x512 ![0, 1] bcast_S512x1_S512x512_0_1 : (⟨S512x1, .i32⟩ : BufTy).Contents (Elt F) → (⟨S512x512, .i32⟩ : BufTy).Contents (Elt F)),
    StableHlo.binary main_v16 main_v15 main_v17 (addi : (⟨S512x512, .i32⟩ : BufTy).Contents (Elt F) → (⟨S512x512, .i32⟩ : BufTy).Contents (Elt F) → (⟨S512x512, .i32⟩ : BufTy).Contents (Elt F)),
    StableHlo.nullary main_c_2 (constantI S_ 32 0#32) ]
/-- Each touches TensorCore references only. -/
theorem main_part0_ops2_sub : (main_part0_ops2 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.binary_bufs_sub .., StableHlo.nullary_bufs_sub ..⟩

/-- 3 operations of @main, in order. -/
abbrev main_part0_ops3 : List (HloOp τ sig (Elt F)) :=
  [ StableHlo.TRef.unary (.of main_c_2 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S512x512, .i32⟩) (broadcastInDim S512x512 ![] bcast_S_S512x512),
    StableHlo.TRef.ternary (.of main_v6 : StableHlo.TRef sig ⟨S512x512, .i1⟩) (.of main_v17 : StableHlo.TRef sig ⟨S512x512, .i32⟩) (.of main_call1_v1 : StableHlo.TRef sig ⟨S512x512, .i32⟩) (.of main_v18 : StableHlo.TRef sig ⟨S512x512, .i32⟩) select ]
/-- Each touches TensorCore references only. -/
theorem main_part0_ops3_sub : (main_part0_ops3 : List (HloOp τ sig (Elt F))).Forall fun op => op.bufs ⊆ StableHlo.tcRefs τ sig :=
  ⟨StableHlo.unary_bufs_sub .., StableHlo.unary_bufs_sub .., StableHlo.ternary_bufs_sub ..⟩

/-- 10 operations of @main, in order. -/
abbrev main_part0_ops4 : List (HloOp τ sig (Elt F)) :=
  [ StableHlo.nullary main_c_3 (constantI S_ 32 0#32),
    StableHlo.unary main_c_3 main_v19 (broadcastInDim S512x512 ![] bcast_S_S512x512 : (⟨S_, .i32⟩ : BufTy).Contents (Elt F) → (⟨S512x512, .i32⟩ : BufTy).Contents (Elt F)),
    StableHlo.binary main_v18 main_v19 main_v20 (cmpi .slt : (⟨S512x512, .i32⟩ : BufTy).Contents (Elt F) → (⟨S512x512, .i32⟩ : BufTy).Contents (Elt F) → (⟨S512x512, .i1⟩ : BufTy).Contents (Elt F)),
    StableHlo.nullary main_c_4 (constantI S_ 32 131328#32),
    StableHlo.unary main_c_4 main_v21 (broadcastInDim S512x512 ![] bcast_S_S512x512 : (⟨S_, .i32⟩ : BufTy).Contents (Elt F) → (⟨S512x512, .i32⟩ : BufTy).Contents (Elt F)),
    StableHlo.binary main_v18 main_v21 main_v22 (addi : (⟨S512x512, .i32⟩ : BufTy).Contents (Elt F) → (⟨S512x512, .i32⟩ : BufTy).Contents (Elt F) → (⟨S512x512, .i32⟩ : BufTy).Contents (Elt F)),
    StableHlo.ternary main_v20 main_v22 main_v18 main_v23 (select : (⟨S512x512, .i1⟩ : BufTy).Contents (Elt F) → (⟨S512x512, .i32⟩ : BufTy).Contents (Elt F) → (⟨S512x512, .i32⟩ : BufTy).Contents (Elt F) → (⟨S512x512, .i32⟩ : BufTy).Contents (Elt F)),
    StableHlo.unary main_v23 main_v24 (broadcastInDim S512x512x1 ![0, 1] bcast_S512x512_S512x512x1_0_1 : (⟨S512x512, .i32⟩ : BufTy).Contents (Elt F) → (⟨S512x512x1, .i32⟩ : BufTy).Contents (Elt F)),
    StableHlo.binary main_arg0 main_v24 main_v25 ((fun x i => Host.gather gather_S131328_S512x512x1_S512x512_n_0_n_n_0_2_1 x i) : (⟨S131328, .f32⟩ : BufTy).Contents (Elt F) → (⟨S512x512x1, .i32⟩ : BufTy).Contents (Elt F) → (⟨S512x512, .f32⟩ : BufTy).Contents (Elt F)),
    StableHlo.nullary main_cst (constant S_ .f32 0x00000000#32) ]
/-- Each touches TensorCore references only. -/
theorem main_part0_ops4_sub : (main_part0_ops4 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub ..⟩

/-- 2 operations of @main, in order. -/
abbrev main_part0_ops5 : List (HloOp τ sig (Elt F)) :=
  [ StableHlo.TRef.unary (.of main_cst : StableHlo.TRef sig ⟨S_, .f32⟩) (.of main_call2_v0 : StableHlo.TRef sig ⟨S512x512, .f32⟩) (broadcastInDim S512x512 ![] bcast_S_S512x512),
    StableHlo.TRef.ternary (.of main_v6 : StableHlo.TRef sig ⟨S512x512, .i1⟩) (.of main_v25 : StableHlo.TRef sig ⟨S512x512, .f32⟩) (.of main_call2_v0 : StableHlo.TRef sig ⟨S512x512, .f32⟩) (.of main_v26 : StableHlo.TRef sig ⟨S512x512, .f32⟩) select ]
/-- Each touches TensorCore references only. -/
theorem main_part0_ops5_sub : (main_part0_ops5 : List (HloOp τ sig (Elt F))).Forall fun op => op.bufs ⊆ StableHlo.tcRefs τ sig :=
  ⟨StableHlo.unary_bufs_sub .., StableHlo.ternary_bufs_sub ..⟩

/-- 15 operations of @main, in order. -/
abbrev main_part0_ops6 : List (HloOp τ sig (Elt F)) :=
  [ StableHlo.nullary main_v27 (iotaInDim S512 32 0),
    StableHlo.unary main_v27 main_v28 (broadcastInDim S512x1 ![0] bcast_S512_S512x1_0 : (⟨S512, .i32⟩ : BufTy).Contents (Elt F) → (⟨S512x1, .i32⟩ : BufTy).Contents (Elt F)),
    StableHlo.nullary main_v29 (iotaInDim S512 32 0),
    StableHlo.unary main_v29 main_v30 (broadcastInDim S1x512 ![1] bcast_S512_S1x512_1 : (⟨S512, .i32⟩ : BufTy).Contents (Elt F) → (⟨S1x512, .i32⟩ : BufTy).Contents (Elt F)),
    StableHlo.unary main_v30 main_v31 (broadcastInDim S512x512 ![0, 1] bcast_S1x512_S512x512_0_1 : (⟨S1x512, .i32⟩ : BufTy).Contents (Elt F) → (⟨S512x512, .i32⟩ : BufTy).Contents (Elt F)),
    StableHlo.unary main_v28 main_v32 (broadcastInDim S512x512 ![0, 1] bcast_S512x1_S512x512_0_1 : (⟨S512x1, .i32⟩ : BufTy).Contents (Elt F) → (⟨S512x512, .i32⟩ : BufTy).Contents (Elt F)),
    StableHlo.binary main_v31 main_v32 main_v33 (cmpi .sge : (⟨S512x512, .i32⟩ : BufTy).Contents (Elt F) → (⟨S512x512, .i32⟩ : BufTy).Contents (Elt F) → (⟨S512x512, .i1⟩ : BufTy).Contents (Elt F)),
    StableHlo.nullary main_c_5 (constantI S_ 32 1024#32),
    StableHlo.unary main_c_5 main_v34 (broadcastInDim S512x1 ![] bcast_S_S512x1 : (⟨S_, .i32⟩ : BufTy).Contents (Elt F) → (⟨S512x1, .i32⟩ : BufTy).Contents (Elt F)),
    StableHlo.binary main_v34 main_v28 main_v35 (subi : (⟨S512x1, .i32⟩ : BufTy).Contents (Elt F) → (⟨S512x1, .i32⟩ : BufTy).Contents (Elt F) → (⟨S512x1, .i32⟩ : BufTy).Contents (Elt F)),
    StableHlo.nullary main_c_6 (constantI S_ 32 1#32),
    StableHlo.unary main_c_6 main_v36 (broadcastInDim S512x1 ![] bcast_S_S512x1 : (⟨S_, .i32⟩ : BufTy).Contents (Elt F) → (⟨S512x1, .i32⟩ : BufTy).Contents (Elt F)),
    StableHlo.binary main_v35 main_v36 main_v37 (addi : (⟨S512x1, .i32⟩ : BufTy).Contents (Elt F) → (⟨S512x1, .i32⟩ : BufTy).Contents (Elt F) → (⟨S512x1, .i32⟩ : BufTy).Contents (Elt F)),
    StableHlo.binary main_v28 main_v37 main_v38 (muli : (⟨S512x1, .i32⟩ : BufTy).Contents (Elt F) → (⟨S512x1, .i32⟩ : BufTy).Contents (Elt F) → (⟨S512x1, .i32⟩ : BufTy).Contents (Elt F)),
    StableHlo.nullary main_c_7 (constantI S_ 32 2#32) ]
/-- Each touches TensorCore references only. -/
theorem main_part0_ops6_sub : (main_part0_ops6 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub ..⟩

/-- 17 operations of @main, in order. -/
abbrev main_part0_ops7 : List (HloOp τ sig (Elt F)) :=
  [ StableHlo.TRef.unary (.of main_c_7 : StableHlo.TRef sig ⟨S_, .i32⟩) (.of main_call3_v0 : StableHlo.TRef sig ⟨S_, .i32⟩) id,
    StableHlo.TRef.unary (.of main_call3_v0 : StableHlo.TRef sig ⟨S_, .i32⟩) (.of main_call3_v1 : StableHlo.TRef sig ⟨S512x1, .i32⟩) (broadcastInDim S512x1 ![] bcast_S_S512x1),
    StableHlo.TRef.binary (.of main_v38 : StableHlo.TRef sig ⟨S512x1, .i32⟩) (.of main_call3_v1 : StableHlo.TRef sig ⟨S512x1, .i32⟩) (.of main_call3_v2 : StableHlo.TRef sig ⟨S512x1, .i32⟩) Host.divsi,
    StableHlo.TRef.unary (.of main_v38 : StableHlo.TRef sig ⟨S512x1, .i32⟩) (.of main_call3_v3 : StableHlo.TRef sig ⟨S512x1, .i32⟩) signi,
    StableHlo.TRef.unary (.of main_call3_v0 : StableHlo.TRef sig ⟨S_, .i32⟩) (.of main_call3_v4 : StableHlo.TRef sig ⟨S_, .i32⟩) signi,
    StableHlo.TRef.unary (.of main_call3_v4 : StableHlo.TRef sig ⟨S_, .i32⟩) (.of main_call3_v5 : StableHlo.TRef sig ⟨S512x1, .i32⟩) (broadcastInDim S512x1 ![] bcast_S_S512x1),
    StableHlo.TRef.binary (.of main_call3_v3 : StableHlo.TRef sig ⟨S512x1, .i32⟩) (.of main_call3_v5 : StableHlo.TRef sig ⟨S512x1, .i32⟩) (.of main_call3_v6 : StableHlo.TRef sig ⟨S512x1, .i1⟩) (cmpi .ne),
    StableHlo.TRef.unary (.of main_call3_v0 : StableHlo.TRef sig ⟨S_, .i32⟩) (.of main_call3_v7 : StableHlo.TRef sig ⟨S512x1, .i32⟩) (broadcastInDim S512x1 ![] bcast_S_S512x1),
    StableHlo.TRef.binary (.of main_v38 : StableHlo.TRef sig ⟨S512x1, .i32⟩) (.of main_call3_v7 : StableHlo.TRef sig ⟨S512x1, .i32⟩) (.of main_call3_v8 : StableHlo.TRef sig ⟨S512x1, .i32⟩) Host.remsi,
    StableHlo.TRef.nullary (.of main_call3_c : StableHlo.TRef sig ⟨S_, .i32⟩) (constantI S_ 32 0#32),
    StableHlo.TRef.unary (.of main_call3_c : StableHlo.TRef sig ⟨S_, .i32⟩) (.of main_call3_v9 : StableHlo.TRef sig ⟨S512x1, .i32⟩) (broadcastInDim S512x1 ![] bcast_S_S512x1),
    StableHlo.TRef.binary (.of main_call3_v8 : StableHlo.TRef sig ⟨S512x1, .i32⟩) (.of main_call3_v9 : StableHlo.TRef sig ⟨S512x1, .i32⟩) (.of main_call3_v10 : StableHlo.TRef sig ⟨S512x1, .i1⟩) (cmpi .ne),
    StableHlo.TRef.binary (.of main_call3_v6 : StableHlo.TRef sig ⟨S512x1, .i1⟩) (.of main_call3_v10 : StableHlo.TRef sig ⟨S512x1, .i1⟩) (.of main_call3_v11 : StableHlo.TRef sig ⟨S512x1, .i1⟩) andi,
    StableHlo.TRef.nullary (.of main_call3_c_0 : StableHlo.TRef sig ⟨S_, .i32⟩) (constantI S_ 32 1#32),
    StableHlo.TRef.unary (.of main_call3_c_0 : StableHlo.TRef sig ⟨S_, .i32⟩) (.of main_call3_v12 : StableHlo.TRef sig ⟨S512x1, .i32⟩) (broadcastInDim S512x1 ![] bcast_S_S512x1),
    StableHlo.TRef.binary (.of main_call3_v2 : StableHlo.TRef sig ⟨S512x1, .i32⟩) (.of main_call3_v12 : StableHlo.TRef sig ⟨S512x1, .i32⟩) (.of main_call3_v13 : StableHlo.TRef sig ⟨S512x1, .i32⟩) subi,
    StableHlo.TRef.ternary (.of main_call3_v11 : StableHlo.TRef sig ⟨S512x1, .i1⟩) (.of main_call3_v13 : StableHlo.TRef sig ⟨S512x1, .i32⟩) (.of main_call3_v2 : StableHlo.TRef sig ⟨S512x1, .i32⟩) (.of main_v39 : StableHlo.TRef sig ⟨S512x1, .i32⟩) select ]
/-- Each touches TensorCore references only. -/
theorem main_part0_ops7_sub : (main_part0_ops7 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩

/-- 6 operations of @main, in order. -/
abbrev main_part0_ops8 : List (HloOp τ sig (Elt F)) :=
  [ StableHlo.unary main_v30 main_v40 (broadcastInDim S512x512 ![0, 1] bcast_S1x512_S512x512_0_1 : (⟨S1x512, .i32⟩ : BufTy).Contents (Elt F) → (⟨S512x512, .i32⟩ : BufTy).Contents (Elt F)),
    StableHlo.unary main_v28 main_v41 (broadcastInDim S512x512 ![0, 1] bcast_S512x1_S512x512_0_1 : (⟨S512x1, .i32⟩ : BufTy).Contents (Elt F) → (⟨S512x512, .i32⟩ : BufTy).Contents (Elt F)),
    StableHlo.binary main_v40 main_v41 main_v42 (subi : (⟨S512x512, .i32⟩ : BufTy).Contents (Elt F) → (⟨S512x512, .i32⟩ : BufTy).Contents (Elt F) → (⟨S512x512, .i32⟩ : BufTy).Contents (Elt F)),
    StableHlo.unary main_v39 main_v43 (broadcastInDim S512x512 ![0, 1] bcast_S512x1_S512x512_0_1 : (⟨S512x1, .i32⟩ : BufTy).Contents (Elt F) → (⟨S512x512, .i32⟩ : BufTy).Contents (Elt F)),
    StableHlo.binary main_v43 main_v42 main_v44 (addi : (⟨S512x512, .i32⟩ : BufTy).Contents (Elt F) → (⟨S512x512, .i32⟩ : BufTy).Contents (Elt F) → (⟨S512x512, .i32⟩ : BufTy).Contents (Elt F)),
    StableHlo.nullary main_c_8 (constantI S_ 32 0#32) ]
/-- Each touches TensorCore references only. -/
theorem main_part0_ops8_sub : (main_part0_ops8 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.binary_bufs_sub .., StableHlo.nullary_bufs_sub ..⟩

/-- 3 operations of @main, in order. -/
abbrev main_part0_ops9 : List (HloOp τ sig (Elt F)) :=
  [ StableHlo.TRef.unary (.of main_c_8 : StableHlo.TRef sig ⟨S_, .i32⟩) (.of main_call4_v0 : StableHlo.TRef sig ⟨S_, .i32⟩) id,
    StableHlo.TRef.unary (.of main_call4_v0 : StableHlo.TRef sig ⟨S_, .i32⟩) (.of main_call4_v1 : StableHlo.TRef sig ⟨S512x512, .i32⟩) (broadcastInDim S512x512 ![] bcast_S_S512x512),
    StableHlo.TRef.ternary (.of main_v33 : StableHlo.TRef sig ⟨S512x512, .i1⟩) (.of main_v44 : StableHlo.TRef sig ⟨S512x512, .i32⟩) (.of main_call4_v1 : StableHlo.TRef sig ⟨S512x512, .i32⟩) (.of main_v45 : StableHlo.TRef sig ⟨S512x512, .i32⟩) select ]
/-- Each touches TensorCore references only. -/
theorem main_part0_ops9_sub : (main_part0_ops9 : List (HloOp τ sig (Elt F))).Forall fun op => op.bufs ⊆ StableHlo.tcRefs τ sig :=
  ⟨StableHlo.unary_bufs_sub .., StableHlo.unary_bufs_sub .., StableHlo.ternary_bufs_sub ..⟩

/-- 3 operations of @main, in order. -/
abbrev main_part0_ops10 : List (HloOp τ sig (Elt F)) :=
  [ StableHlo.nullary main_c_9 (constantI S_ 32 0#32),
    StableHlo.unary main_c_9 main_v46 (broadcastInDim S512x512 ![] bcast_S_S512x512 : (⟨S_, .i32⟩ : BufTy).Contents (Elt F) → (⟨S512x512, .i32⟩ : BufTy).Contents (Elt F)),
    StableHlo.binary main_v45 main_v46 main_v47 (cmpi .slt : (⟨S512x512, .i32⟩ : BufTy).Contents (Elt F) → (⟨S512x512, .i32⟩ : BufTy).Contents (Elt F) → (⟨S512x512, .i1⟩ : BufTy).Contents (Elt F)) ]
/-- Each touches TensorCore references only. -/
theorem main_part0_ops10_sub : (main_part0_ops10 : List (HloOp τ sig (Elt F))).Forall fun op => op.bufs ⊆ StableHlo.tcRefs τ sig :=
  ⟨StableHlo.nullary_bufs_sub .., StableHlo.unary_bufs_sub .., StableHlo.binary_bufs_sub ..⟩

/-- 7 operations of @main, in order. -/
abbrev main_part1_ops0 : List (HloOp τ sig (Elt F)) :=
  [ StableHlo.nullary main_c_10 (constantI S_ 32 131328#32),
    StableHlo.unary main_c_10 main_v48 (broadcastInDim S512x512 ![] bcast_S_S512x512 : (⟨S_, .i32⟩ : BufTy).Contents (Elt F) → (⟨S512x512, .i32⟩ : BufTy).Contents (Elt F)),
    StableHlo.binary main_v45 main_v48 main_v49 (addi : (⟨S512x512, .i32⟩ : BufTy).Contents (Elt F) → (⟨S512x512, .i32⟩ : BufTy).Contents (Elt F) → (⟨S512x512, .i32⟩ : BufTy).Contents (Elt F)),
    StableHlo.ternary main_v47 main_v49 main_v45 main_v50 (select : (⟨S512x512, .i1⟩ : BufTy).Contents (Elt F) → (⟨S512x512, .i32⟩ : BufTy).Contents (Elt F) → (⟨S512x512, .i32⟩ : BufTy).Contents (Elt F) → (⟨S512x512, .i32⟩ : BufTy).Contents (Elt F)),
    StableHlo.unary main_v50 main_v51 (broadcastInDim S512x512x1 ![0, 1] bcast_S512x512_S512x512x1_0_1 : (⟨S512x512, .i32⟩ : BufTy).Contents (Elt F) → (⟨S512x512x1, .i32⟩ : BufTy).Contents (Elt F)),
    StableHlo.binary main_arg1 main_v51 main_v52 ((fun x i => Host.gather gather_S131328_S512x512x1_S512x512_n_0_n_n_0_2_1 x i) : (⟨S131328, .f32⟩ : BufTy).Contents (Elt F) → (⟨S512x512x1, .i32⟩ : BufTy).Contents (Elt F) → (⟨S512x512, .f32⟩ : BufTy).Contents (Elt F)),
    StableHlo.nullary main_cst_11 (constant S_ .f32 0x00000000#32) ]
/-- Each touches TensorCore references only. -/
theorem main_part1_ops0_sub : (main_part1_ops0 : List (HloOp τ sig (Elt F))).Forall fun op => op.bufs ⊆ StableHlo.tcRefs τ sig :=
  ⟨StableHlo.nullary_bufs_sub .., StableHlo.unary_bufs_sub .., StableHlo.binary_bufs_sub .., StableHlo.ternary_bufs_sub .., StableHlo.unary_bufs_sub .., StableHlo.binary_bufs_sub .., StableHlo.nullary_bufs_sub ..⟩

/-- 2 operations of @main, in order. -/
abbrev main_part1_ops1 : List (HloOp τ sig (Elt F)) :=
  [ StableHlo.TRef.unary (.of main_cst_11 : StableHlo.TRef sig ⟨S_, .f32⟩) (.of main_call5_v0 : StableHlo.TRef sig ⟨S512x512, .f32⟩) (broadcastInDim S512x512 ![] bcast_S_S512x512),
    StableHlo.TRef.ternary (.of main_v33 : StableHlo.TRef sig ⟨S512x512, .i1⟩) (.of main_v52 : StableHlo.TRef sig ⟨S512x512, .f32⟩) (.of main_call5_v0 : StableHlo.TRef sig ⟨S512x512, .f32⟩) (.of main_v53 : StableHlo.TRef sig ⟨S512x512, .f32⟩) select ]
/-- Each touches TensorCore references only. -/
theorem main_part1_ops1_sub : (main_part1_ops1 : List (HloOp τ sig (Elt F))).Forall fun op => op.bufs ⊆ StableHlo.tcRefs τ sig :=
  ⟨StableHlo.unary_bufs_sub .., StableHlo.ternary_bufs_sub ..⟩

/-- The last operation of @main: the product of the two dense arrays. -/
abbrev main_part1_ops2 : List (HloOp τ sig (Elt F)) :=
  [ StableHlo.binary main_v26 main_v53 main_v54 ((fun l r => Host.dotGeneral dot_S512x512_S512x512_S512x512_1_0_0_1_n_n none l r) : (⟨S512x512, .f32⟩ : BufTy).Contents (Elt F) → (⟨S512x512, .f32⟩ : BufTy).Contents (Elt F) → (⟨S512x512, .f32⟩ : BufTy).Contents (Elt F)) ]
/-- It touches TensorCore references only. -/
theorem main_part1_ops2_sub : (main_part1_ops2 : List (HloOp τ sig (Elt F))).Forall fun op => op.bufs ⊆ StableHlo.tcRefs τ sig :=
  StableHlo.binary_bufs_sub ..

set_option maxHeartbeats 40000000 in
/-- Statements 37 … 60 of the first window (from the second argument's first iota on), as a block of their own. -/
noncomputable def main_part0_b : Dev nD → Prog (TpuEff nD τ sig (Elt F) (Pipeline.Sig Λ₀ (Fin 0) fun p => (pcfgs (F := F) p).Adm) .tc) PUnit := fun _ => do
  hlo rfl (StableHlo.nullary main_v27 (iotaInDim S512 32 0)) (fun _ => .ret ⟨⟩) -- %27 = stablehlo.iota dim = 0 : tensor<512xi32>  @ reference:14
  hlo rfl (StableHlo.unary main_v27 main_v28 (broadcastInDim S512x1 ![0] bcast_S512_S512x1_0 : (⟨S512, .i32⟩ : BufTy).Contents (Elt F) → (⟨S512x1, .i32⟩ : BufTy).Contents (Elt F))) (fun _ => .ret ⟨⟩) -- %28 = stablehlo.broadcast_in_dim %27, dims = [0] : (tensor<512xi32>) -> tensor<512x1xi32>  @ reference:14
  hlo rfl (StableHlo.nullary main_v29 (iotaInDim S512 32 0)) (fun _ => .ret ⟨⟩) -- %29 = stablehlo.iota dim = 0 : tensor<512xi32>  @ reference:15
  hlo rfl (StableHlo.unary main_v29 main_v30 (broadcastInDim S1x512 ![1] bcast_S512_S1x512_1 : (⟨S512, .i32⟩ : BufTy).Contents (Elt F) → (⟨S1x512, .i32⟩ : BufTy).Contents (Elt F))) (fun _ => .ret ⟨⟩) -- %30 = stablehlo.broadcast_in_dim %29, dims = [1] : (tensor<512xi32>) -> tensor<1x512xi32>  @ reference:15
  hlo rfl (StableHlo.unary main_v30 main_v31 (broadcastInDim S512x512 ![0, 1] bcast_S1x512_S512x512_0_1 : (⟨S1x512, .i32⟩ : BufTy).Contents (Elt F) → (⟨S512x512, .i32⟩ : BufTy).Contents (Elt F))) (fun _ => .ret ⟨⟩) -- %31 = stablehlo.broadcast_in_dim %30, dims = [0, 1] : (tensor<1x512xi32>) -> tensor<512x512xi32>  @ reference:16
  hlo rfl (StableHlo.unary main_v28 main_v32 (broadcastInDim S512x512 ![0, 1] bcast_S512x1_S512x512_0_1 : (⟨S512x1, .i32⟩ : BufTy).Contents (Elt F) → (⟨S512x512, .i32⟩ : BufTy).Contents (Elt F))) (fun _ => .ret ⟨⟩) -- %32 = stablehlo.broadcast_in_dim %28, dims = [0, 1] : (tensor<512x1xi32>) -> tensor<512x512xi32>  @ reference:16
  hlo rfl (StableHlo.binary main_v31 main_v32 main_v33 (cmpi .sge : (⟨S512x512, .i32⟩ : BufTy).Contents (Elt F) → (⟨S512x512, .i32⟩ : BufTy).Contents (Elt F) → (⟨S512x512, .i1⟩ : BufTy).Contents (Elt F))) (fun _ => .ret ⟨⟩) -- %33 = stablehlo.compare GE, %31, %32, SIGNED : (tensor<512x512xi32>, tensor<512x512xi32>) -> tensor<512x512xi1>  @ reference:16
  hlo rfl (StableHlo.nullary main_c_5 (constantI S_ 32 1024#32)) (fun _ => .ret ⟨⟩) -- %c_5 = stablehlo.constant dense<1024> : tensor<i32>
  hlo rfl (StableHlo.unary main_c_5 main_v34 (broadcastInDim S512x1 ![] bcast_S_S512x1 : (⟨S_, .i32⟩ : BufTy).Contents (Elt F) → (⟨S512x1, .i32⟩ : BufTy).Contents (Elt F))) (fun _ => .ret ⟨⟩) -- %34 = stablehlo.broadcast_in_dim %c_5, dims = [] : (tensor<i32>) -> tensor<512x1xi32>  @ reference:17
  hlo rfl (StableHlo.binary main_v34 main_v28 main_v35 (subi : (⟨S512x1, .i32⟩ : BufTy).Contents (Elt F) → (⟨S512x1, .i32⟩ : BufTy).Contents (Elt F) → (⟨S512x1, .i32⟩ : BufTy).Contents (Elt F))) (fun _ => .ret ⟨⟩) -- %35 = stablehlo.subtract %34, %28 : tensor<512x1xi32>  @ reference:17
  hlo rfl (StableHlo.nullary main_c_6 (constantI S_ 32 1#32)) (fun _ => .ret ⟨⟩) -- %c_6 = stablehlo.constant dense<1> : tensor<i32>
  hlo rfl (StableHlo.unary main_c_6 main_v36 (broadcastInDim S512x1 ![] bcast_S_S512x1 : (⟨S_, .i32⟩ : BufTy).Contents (Elt F) → (⟨S512x1, .i32⟩ : BufTy).Contents (Elt F))) (fun _ => .ret ⟨⟩) -- %36 = stablehlo.broadcast_in_dim %c_6, dims = [] : (tensor<i32>) -> tensor<512x1xi32>  @ reference:17
  hlo rfl (StableHlo.binary main_v35 main_v36 main_v37 (addi : (⟨S512x1, .i32⟩ : BufTy).Contents (Elt F) → (⟨S512x1, .i32⟩ : BufTy).Contents (Elt F) → (⟨S512x1, .i32⟩ : BufTy).Contents (Elt F))) (fun _ => .ret ⟨⟩) -- %37 = stablehlo.add %35, %36 : tensor<512x1xi32>  @ reference:17
  hlo rfl (StableHlo.binary main_v28 main_v37 main_v38 (muli : (⟨S512x1, .i32⟩ : BufTy).Contents (Elt F) → (⟨S512x1, .i32⟩ : BufTy).Contents (Elt F) → (⟨S512x1, .i32⟩ : BufTy).Contents (Elt F))) (fun _ => .ret ⟨⟩) -- %38 = stablehlo.multiply %28, %37 : tensor<512x1xi32>  @ reference:17
  hlo rfl (StableHlo.nullary main_c_7 (constantI S_ 32 2#32)) (fun _ => .ret ⟨⟩) -- %c_7 = stablehlo.constant dense<2> : tensor<i32>
  fn_floor_divide.body (.of main_v38) (.of main_c_7) main_call3         -- %39 = func.call @floor_divide(%38, %c_7) : (tensor<512x1xi32>, tensor<i32>) -> tensor<512x1xi32>  @ reference:17
  hlo rfl (StableHlo.unary main_v30 main_v40 (broadcastInDim S512x512 ![0, 1] bcast_S1x512_S512x512_0_1 : (⟨S1x512, .i32⟩ : BufTy).Contents (Elt F) → (⟨S512x512, .i32⟩ : BufTy).Contents (Elt F))) (fun _ => .ret ⟨⟩) -- %40 = stablehlo.broadcast_in_dim %30, dims = [0, 1] : (tensor<1x512xi32>) -> tensor<512x512xi32>  @ reference:17
  hlo rfl (StableHlo.unary main_v28 main_v41 (broadcastInDim S512x512 ![0, 1] bcast_S512x1_S512x512_0_1 : (⟨S512x1, .i32⟩ : BufTy).Contents (Elt F) → (⟨S512x512, .i32⟩ : BufTy).Contents (Elt F))) (fun _ => .ret ⟨⟩) -- %41 = stablehlo.broadcast_in_dim %28, dims = [0, 1] : (tensor<512x1xi32>) -> tensor<512x512xi32>  @ reference:17
  hlo rfl (StableHlo.binary main_v40 main_v41 main_v42 (subi : (⟨S512x512, .i32⟩ : BufTy).Contents (Elt F) → (⟨S512x512, .i32⟩ : BufTy).Contents (Elt F) → (⟨S512x512, .i32⟩ : BufTy).Contents (Elt F))) (fun _ => .ret ⟨⟩) -- %42 = stablehlo.subtract %40, %41 : tensor<512x512xi32>  @ reference:17
  hlo rfl (StableHlo.unary main_v39 main_v43 (broadcastInDim S512x512 ![0, 1] bcast_S512x1_S512x512_0_1 : (⟨S512x1, .i32⟩ : BufTy).Contents (Elt F) → (⟨S512x512, .i32⟩ : BufTy).Contents (Elt F))) (fun _ => .ret ⟨⟩) -- %43 = stablehlo.broadcast_in_dim %39, dims = [0, 1] : (tensor<512x1xi32>) -> tensor<512x512xi32>  @ reference:17
  hlo rfl (StableHlo.binary main_v43 main_v42 main_v44 (addi : (⟨S512x512, .i32⟩ : BufTy).Contents (Elt F) → (⟨S512x512, .i32⟩ : BufTy).Contents (Elt F) → (⟨S512x512, .i32⟩ : BufTy).Contents (Elt F))) (fun _ => .ret ⟨⟩) -- %44 = stablehlo.add %43, %42 : tensor<512x512xi32>  @ reference:17
  hlo rfl (StableHlo.nullary main_c_8 (constantI S_ 32 0#32)) (fun _ => .ret ⟨⟩) -- %c_8 = stablehlo.constant dense<0> : tensor<i32>
  fn_where_0.body (.of main_v33) (.of main_v44) (.of main_c_8) main_call4 -- %45 = func.call @_where_0(%33, %44, %c_8) : (tensor<512x512xi1>, tensor<512x512xi32>, tensor<i32>) -> tensor<512x512xi32>  @ reference:18
  hlo rfl (StableHlo.nullary main_c_9 (constantI S_ 32 0#32)) (fun _ => .ret ⟨⟩) -- %c_9 = stablehlo.constant dense<0> : tensor<i32>
  hlo rfl (StableHlo.unary main_c_9 main_v46 (broadcastInDim S512x512 ![] bcast_S_S512x512 : (⟨S_, .i32⟩ : BufTy).Contents (Elt F) → (⟨S512x512, .i32⟩ : BufTy).Contents (Elt F))) (fun _ => .ret ⟨⟩) -- %46 = stablehlo.broadcast_in_dim %c_9, dims = [] : (tensor<i32>) -> tensor<512x512xi32>  @ reference:19
  hlo rfl (StableHlo.binary main_v45 main_v46 main_v47 (cmpi .slt : (⟨S512x512, .i32⟩ : BufTy).Contents (Elt F) → (⟨S512x512, .i32⟩ : BufTy).Contents (Elt F) → (⟨S512x512, .i1⟩ : BufTy).Contents (Elt F))) (fun _ => .ret ⟨⟩) -- %47 = stablehlo.compare LT, %45, %46, SIGNED : (tensor<512x512xi32>, tensor<512x512xi32>) -> tensor<512x512xi1>  @ reference:19

set_option maxHeartbeats 40000000 in
/-- The last statements of the first window (from the column-minus-row difference of the second argument on), as a block of their own. -/
noncomputable def main_part0_c : Dev nD → Prog (TpuEff nD τ sig (Elt F) (Pipeline.Sig Λ₀ (Fin 0) fun p => (pcfgs (F := F) p).Adm) .tc) PUnit := fun _ => do
  hlo rfl (StableHlo.unary main_v30 main_v40 (broadcastInDim S512x512 ![0, 1] bcast_S1x512_S512x512_0_1 : (⟨S1x512, .i32⟩ : BufTy).Contents (Elt F) → (⟨S512x512, .i32⟩ : BufTy).Contents (Elt F))) (fun _ => .ret ⟨⟩) -- %40 = stablehlo.broadcast_in_dim %30, dims = [0, 1] : (tensor<1x512xi32>) -> tensor<512x512xi32>  @ reference:17
  hlo rfl (StableHlo.unary main_v28 main_v41 (broadcastInDim S512x512 ![0, 1] bcast_S512x1_S512x512_0_1 : (⟨S512x1, .i32⟩ : BufTy).Contents (Elt F) → (⟨S512x512, .i32⟩ : BufTy).Contents (Elt F))) (fun _ => .ret ⟨⟩) -- %41 = stablehlo.broadcast_in_dim %28, dims = [0, 1] : (tensor<512x1xi32>) -> tensor<512x512xi32>  @ reference:17
  hlo rfl (StableHlo.binary main_v40 main_v41 main_v42 (subi : (⟨S512x512, .i32⟩ : BufTy).Contents (Elt F) → (⟨S512x512, .i32⟩ : BufTy).Contents (Elt F) → (⟨S512x512, .i32⟩ : BufTy).Contents (Elt F))) (fun _ => .ret ⟨⟩) -- %42 = stablehlo.subtract %40, %41 : tensor<512x512xi32>  @ reference:17
  hlo rfl (StableHlo.unary main_v39 main_v43 (broadcastInDim S512x512 ![0, 1] bcast_S512x1_S512x512_0_1 : (⟨S512x1, .i32⟩ : BufTy).Contents (Elt F) → (⟨S512x512, .i32⟩ : BufTy).Contents (Elt F))) (fun _ => .ret ⟨⟩) -- %43 = stablehlo.broadcast_in_dim %39, dims = [0, 1] : (tensor<512x1xi32>) -> tensor<512x512xi32>  @ reference:17
  hlo rfl (StableHlo.binary main_v43 main_v42 main_v44 (addi : (⟨S512x512, .i32⟩ : BufTy).Contents (Elt F) → (⟨S512x512, .i32⟩ : BufTy).Contents (Elt F) → (⟨S512x512, .i32⟩ : BufTy).Contents (Elt F))) (fun _ => .ret ⟨⟩) -- %44 = stablehlo.add %43, %42 : tensor<512x512xi32>  @ reference:17
  hlo rfl (StableHlo.nullary main_c_8 (constantI S_ 32 0#32)) (fun _ => .ret ⟨⟩) -- %c_8 = stablehlo.constant dense<0> : tensor<i32>
  fn_where_0.body (.of main_v33) (.of main_v44) (.of main_c_8) main_call4 -- %45 = func.call @_where_0(%33, %44, %c_8) : (tensor<512x512xi1>, tensor<512x512xi32>, tensor<i32>) -> tensor<512x512xi32>  @ reference:18
  hlo rfl (StableHlo.nullary main_c_9 (constantI S_ 32 0#32)) (fun _ => .ret ⟨⟩) -- %c_9 = stablehlo.constant dense<0> : tensor<i32>
  hlo rfl (StableHlo.unary main_c_9 main_v46 (broadcastInDim S512x512 ![] bcast_S_S512x512 : (⟨S_, .i32⟩ : BufTy).Contents (Elt F) → (⟨S512x512, .i32⟩ : BufTy).Contents (Elt F))) (fun _ => .ret ⟨⟩) -- %46 = stablehlo.broadcast_in_dim %c_9, dims = [] : (tensor<i32>) -> tensor<512x512xi32>  @ reference:19
  hlo rfl (StableHlo.binary main_v45 main_v46 main_v47 (cmpi .slt : (⟨S512x512, .i32⟩ : BufTy).Contents (Elt F) → (⟨S512x512, .i32⟩ : BufTy).Contents (Elt F) → (⟨S512x512, .i1⟩ : BufTy).Contents (Elt F))) (fun _ => .ret ⟨⟩) -- %47 = stablehlo.compare LT, %45, %46, SIGNED : (tensor<512x512xi32>, tensor<512x512xi32>) -> tensor<512x512xi1>  @ reference:19

/-- The last block is the chain of its stretches. -/
theorem main_part0_c_chain (c : Dev nD) : main_part0_c (F := F) c = (Pipeline.chainK
  [ StableHlo.seq main_part0_ops8,
    StableHlo.seq main_part0_ops9 ]
  (StableHlo.seq main_part0_ops10) : Prog (TpuEff nD τ sig (Elt F) (Pipeline.Sig Λ₀ (Fin 0) fun p => (pcfgs (F := F) p).Adm) .tc) PUnit) := by
  chain_rfl

/-- The block from the second argument's first iota on is the chain of its first stretches ending in the last block. -/
theorem main_part0_b_chain (c : Dev nD) : main_part0_b (F := F) c = (Pipeline.chainK
  [ StableHlo.seq main_part0_ops6,
    StableHlo.seq main_part0_ops7 ]
  (main_part0_c (F := F) c) : Prog (TpuEff nD τ sig (Elt F) (Pipeline.Sig Λ₀ (Fin 0) fun p => (pcfgs (F := F) p).Adm) .tc) PUnit) := by
  chain_rfl

/-- The first window is the chain of its first stretches ending in that block. -/
theorem main_part0_a_chain (c : Dev nD) : main_part0 (F := F) c = (Pipeline.chainK
  [ StableHlo.seq main_part0_ops0,
    StableHlo.seq main_part0_ops1,
    StableHlo.seq main_part0_ops2,
    StableHlo.seq main_part0_ops3,
    StableHlo.seq main_part0_ops4,
    StableHlo.seq main_part0_ops5 ]
  (main_part0_b (F := F) c) : Prog (TpuEff nD τ sig (Elt F) (Pipeline.Sig Λ₀ (Fin 0) fun p => (pcfgs (F := F) p).Adm) .tc) PUnit) := by
  chain_rfl

/-- The first window of @main is the chain of its eleven stretches. -/
theorem main_part0_chain (c : Dev nD) : main_part0 (F := F) c = (Pipeline.chainK
  [ StableHlo.seq main_part0_ops0,
    StableHlo.seq main_part0_ops1,
    StableHlo.seq main_part0_ops2,
    StableHlo.seq main_part0_ops3,
    StableHlo.seq main_part0_ops4,
    StableHlo.seq main_part0_ops5,
    StableHlo.seq main_part0_ops6,
    StableHlo.seq main_part0_ops7,
    StableHlo.seq main_part0_ops8,
    StableHlo.seq main_part0_ops9 ]
  (StableHlo.seq main_part0_ops10) : Prog (TpuEff nD τ sig (Elt F) (Pipeline.Sig Λ₀ (Fin 0) fun p => (pcfgs (F := F) p).Adm) .tc) PUnit) := by
  rw [main_part0_a_chain, main_part0_b_chain, main_part0_c_chain]
  rfl

/-- The last window of @main is the chain of its three stretches. -/
theorem main_part1_chain (c : Dev nD) : main_part1 (F := F) c = (Pipeline.chain
  [ StableHlo.seq main_part1_ops0,
    StableHlo.seq main_part1_ops1,
    StableHlo.seq main_part1_ops2 ] : Prog (TpuEff nD τ sig (Elt F) (Pipeline.Sig Λ₀ (Fin 0) fun p => (pcfgs (F := F) p).Adm) .tc) PUnit) := by
  chain_rfl

end Cert.ReferenceIdeal.HostRun

end
-- ==== Proof.LibHostRun.lean ====
/-
  Two small facts about straight lines of host operations. A list of lists run one after the other is the
  concatenation run as one; and a property of every operation of every list holds of every operation of the concatenation.
-/
import Idealize.ShloMosaic.Lib.StableHlo.Run
import Idealize.ShloMosaic.Lib.Pipeline.Regions

noncomputable section

namespace Cert.LibHostRun

open Idealize.ShloMosaic Idealize.SL.Sem Idealize.ShloMosaic.StableHlo

/-- Lists run one after the other are their concatenation run as one. -/
theorem chain_map_seq {nD : Nat} {τ : Topo} {sig : RefSig} {Val : EltTy → Type} {Λ : Labels} :
    ∀ L : List (List (HloOp τ sig Val)),
      Pipeline.chain (L.map fun l => (StableHlo.seq l : Prog (TpuEff nD τ sig Val Λ .tc) PUnit)) = StableHlo.seq L.flatten
  | [] => rfl
  | l :: L => by
      show ((StableHlo.seq l : Prog (TpuEff nD τ sig Val Λ .tc) PUnit) >>= fun _ => Pipeline.chain (L.map fun l => StableHlo.seq l)) = StableHlo.seq (l ++ L.flatten)
      rw [chain_map_seq L, StableHlo.seq_append]

/-- A property of every operation of every list holds of every operation of their concatenation. -/
theorem forall_flatten {α : Type} {P : α → Prop} (L : List (List α)) (h : L.Forall fun l => l.Forall P) : L.flatten.Forall P := by
  rw [List.forall_iff_forall_mem] at h ⊢
  intro x hx
  obtain ⟨l, hl, hxl⟩ := List.mem_flatten.mp hx
  exact (List.forall_iff_forall_mem.mp (h l hl)) x hxl

end Cert.LibHostRun

end
-- ==== Proof.ReferenceRun.lean ====
/-
  The reference's run.

  @main of the reference is a straight line of 209 host operations and nothing else, so every weakly fair execution of it
  terminates with each buffer at the operations' fold over what the launch dealt. Read at the result buffer that fold is the
  host's product of the two unpacked arguments: the first 53 operations leave the dense array of the first argument in one
  buffer, the next 53 that of the second in another, and the last operation multiplies the two. No operation writes an argument.
-/
import proofs.«113385_j5231270166622_1_alg».proof.Proof.RefOps
import proofs.«113385_j5231270166622_1_alg».proof.Proof.Unpack
import proofs.«113385_j5231270166622_1_alg».proof.Proof.LibHostRun

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- @main's stretches of operations, in order. -/
abbrev stretches : List (List (HloOp τ sig (Elt F))) :=
  [main_part0_ops0, main_part0_ops1, main_part0_ops2, main_part0_ops3, main_part0_ops4, main_part0_ops5, main_part0_ops6,
   main_part0_ops7, main_part0_ops8, main_part0_ops9, main_part0_ops10, main_part1_ops0, main_part1_ops1, main_part1_ops2]

/-- @main's 209 operations, in order. -/
abbrev ops : List (HloOp τ sig (Elt F)) := stretches.flatten

/-- The dense array of a packed vector, with this program's shape relations. -/
abbrev dense (p : FVec F S131328 .f32) : FVec F S512x512 .f32 :=
  PackedUpper.unpack bcast_S512_S512x1_0 bcast_S512_S1x512_1 bcast_S1x512_S512x512_0_1 bcast_S512x1_S512x512_0_1 bcast_S_S512x1
    bcast_S_S512x512 bcast_S512x512_S512x512x1_0_1 gather_S131328_S512x512x1_S512x512_n_0_n_n_0_2_1 p

/-- @main is that straight line: each printed window is the chain of its stretches, a window followed by the chain of the rest
    is the chain of all, and stretches run one after the other are their concatenation run as one. -/
theorem main_eq (c : Dev nD) : main (F := F) c = seq ops := by
  show (main_part0 (F := F) c >>= fun _ => main_part1 (F := F) c) = _
  rw [main_part1_chain, main_part0_chain, Pipeline.chainK_bind_chain]
  exact Cert.LibHostRun.chain_map_seq stretches

/-- After the whole line the result buffer holds the host's product of the two dense arrays, from any contents: the fold,
    evaluated at that buffer. -/
theorem result_eq (V : Valuation τ sig (Elt F)) :
    after ops V (Proc.devRef .tc main_v54)
      = Host.dotGeneral dot_S512x512_S512x512_S512x512_1_0_0_1_n_n none (dense (V (Proc.devRef .tc main_arg0))) (dense (V (Proc.devRef .tc main_arg1))) := by
  chain_rfl

/-- No operation writes the first argument. -/
theorem arg0_eq (V : Valuation τ sig (Elt F)) : after ops V (Proc.devRef .tc main_arg0) = V (Proc.devRef .tc main_arg0) := by
  chain_rfl

/-- No operation writes the second argument. -/
theorem arg1_eq (V : Valuation τ sig (Elt F)) : after ops V (Proc.devRef .tc main_arg1) = V (Proc.devRef .tc main_arg1) := by
  chain_rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  Cert.LibHostRun.forall_flatten stretches (by
    simp only [List.Forall]
    exact ⟨main_part0_ops0_sub, main_part0_ops1_sub, main_part0_ops2_sub, main_part0_ops3_sub, main_part0_ops4_sub, main_part0_ops5_sub,
      main_part0_ops6_sub, main_part0_ops7_sub, main_part0_ops8_sub, main_part0_ops9_sub, main_part0_ops10_sub, main_part1_ops0_sub,
      main_part1_ops1_sub, main_part1_ops2_sub⟩)

/-- Every operation determines its results. -/
theorem ops_fresh : (ops : List (HloOp τ sig (Elt F))).Forall fun op => op.fresh = ∅ :=
  Cert.LibHostRun.forall_flatten stretches (by
    simp only [List.Forall]
    repeat' constructor)

/-- On every device, for any float values, from any memory with zero counters: every weakly fair execution of @main terminates
    with the result buffer at the host's product of the two dense arrays of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v54)
          = Host.dotGeneral dot_S512x512_S512x512_S512x512_1_0_0_1_n_n none (dense (m ((c.tc : Thread nD τ).loc main_arg0))) (dense (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v54).trans (result_eq _), (h c main_arg0).trans (arg0_eq _), (h c main_arg1).trans (arg1_eq _)⟩)
    (run_seq scopedRefs_eq scopedSems_eq defs main (fun _ => ops) main_eq (fun _ => ops_sub) m ρ
      (fun _ => List.forall_iff_forall_mem.mp ops_fresh))

end Cert.ReferenceIdeal.HostRun

end
-- ==== Proof.lean ====
/-
  Packed upper-triangular matrix product: the certificate's five claims.

  Both programs unpack their two packed arguments into dense 512 × 512 arrays with the same chain of host operations, so the dense arrays
  are the same functions of the arguments on both sides. The reference multiplies them with one dot_general: entry (a, b) is the sum over
  c = 0 … 511 of A(a, c) · B(c, b). The kernel narrows the dense arrays to bf16, which changes nothing over the extended reals, and
  multiplies them blockwise on a 2 × 2 × 2 grid, adding the two halves of the contracted coordinate into an accumulator: entry (a, b) of
  its output is zero plus the two half sums, which is the same sum. No step asks that an entry be finite: only that a finite sum may be
  taken in two parts.

  The two kernels' frames are the frame certificates of their runs; the reference's frame is its run with the result dropped; the
  idealization rewrote no operation, so there is nothing to preserve.
-/
import proofs.«113385_j5231270166622_1_alg».proof.Defs
import proofs.«113385_j5231270166622_1_alg».proof.Proof.Gen.Kernel
import proofs.«113385_j5231270166622_1_alg».proof.Proof.Gen.KernelIdeal
import proofs.«113385_j5231270166622_1_alg».proof.Proof.Gen.ReferenceIdeal
import proofs.«113385_j5231270166622_1_alg».proof.Proof.Gen.Pre_finite_inputs
import proofs.«113385_j5231270166622_1_alg».proof.Proof.Patched.Kernel.Frame
import proofs.«113385_j5231270166622_1_alg».proof.Proof.Patched.KernelIdeal.Frame
import proofs.«113385_j5231270166622_1_alg».proof.Proof.FinalArray
import proofs.«113385_j5231270166622_1_alg».proof.Proof.KernelHost
import proofs.«113385_j5231270166622_1_alg».proof.Proof.ReferenceRun
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2) (Cert.ReferenceIdeal.HostRun.run (F := Ideal) m ρ)

/-- The two programs' dense arrays of a packed vector are one function: the same operations, each program's own proofs of the shape
    relations they take. -/
theorem dense_eq (p : FVec Ideal Cert.KernelIdeal.S131328 .f32) :
    Cert.ReferenceIdeal.HostRun.dense p = Cert.KernelIdeal.HostSide.dense p := rfl

/-- The host's product of the two dense arrays, read at an entry, is the sum over the contracted coordinate. -/
theorem host_entry (A B : FVec Ideal Cert.KernelIdeal.S131328 .f32) (i : Cert.KernelIdeal.S512x512.Idx) :
    Host.dotGeneral Cert.ReferenceIdeal.dot_S512x512_S512x512_S512x512_1_0_0_1_n_n none (Cert.ReferenceIdeal.HostRun.dense A)
        (Cert.ReferenceIdeal.HostRun.dense B) i
      = SideBySide.entry (Cert.KernelIdeal.HostSide.dense A) (Cert.KernelIdeal.HostSide.dense B) (i 0) (i 1) := by
  obtain ⟨a, b, rfl⟩ : ∃ (a b : Fin 512), i = ix2 a b := ⟨i 0, i 1, eq_ix2 i⟩
  rw [dense_eq, dense_eq]
  exact SideBySide.hostProduct_apply _ rfl none _ _ a b

/-- At the extended reals the kernel's output array ends at the product of its two window arrays, which are the dense arrays of the
    arguments (narrowing to bf16 being the identity there), and the reference's result at the host's product of the same dense arrays of
    arguments that agree: entry by entry one sum. -/
theorem algebraic : Cert.algebraic_KernelIdeal_ReferenceIdeal := by
  intro m ρ m' ρ' _ hagree
  refine ⟨fun c => Cert.KernelIdeal.Final.product m c, Cert.KernelIdeal.Final.run m ρ, ?_⟩
  refine (θ_run Cert.ReferenceIdeal.defs _ _).mono (fun _ h c => ⟨(h c).1.trans ?_, (h c).2⟩)
    (Cert.ReferenceIdeal.HostRun.run (F := Ideal) m' ρ')
  rw [(hagree c).1, (hagree c).2]
  funext i
  rw [host_entry]
  have hA : ∀ x : Cert.KernelIdeal.S512x512.Idx, Cert.KernelIdeal.Final.Au m c x
      = Cert.KernelIdeal.HostSide.dense (F := Ideal) (m ((c : Thread Cert.KernelIdeal.nD Cert.KernelIdeal.τ).loc Cert.KernelIdeal.main_arg0)) x := fun x => by
    have h := congrFun (Cert.KernelIdeal.HostSide.left_eq m c) x
    rw [truncf_apply] at h
    exact h
  have hB : ∀ x : Cert.KernelIdeal.S512x512.Idx, Cert.KernelIdeal.Final.Bu m c x
      = Cert.KernelIdeal.HostSide.dense (F := Ideal) (m ((c : Thread Cert.KernelIdeal.nD Cert.KernelIdeal.τ).loc Cert.KernelIdeal.main_arg1)) x := fun x => by
    have h := congrFun (Cert.KernelIdeal.HostSide.right_eq m c) x
    rw [truncf_apply] at h
    exact h
  show SideBySide.entry _ _ (i 0) (i 1) = SideBySide.entry (Cert.KernelIdeal.Final.Au m c) (Cert.KernelIdeal.Final.Bu m c) (i 0) (i 1)
  unfold SideBySide.entry
  exact Finset.sum_congr rfl fun k _ => by rw [hA, hB] <;> rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
